-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S32000x4096 : Shape := ⟨2, ![32000, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S32000x4096 : S_.BroadcastsInDim S32000x4096 (![] : Fin 0 → Fin S32000x4096.rank)
  reducesTo_S32000x4096_S_d0_1 : S32000x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v8 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v8 main_v17
  main_v18

def fn {F : FTy → Type} [FloatOps F] (main_arg0 : FVec F S4096x4096 .f32) (main_arg1 : FVec F S32000x4096 .f32) (main_arg2 : IVec S4096 32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S32000x4096 .f32 := Host.absf main_arg1
  let main_cst_0 : FVec F S_ .f32 := constant S_ .f32 0x7F800000#32
  let main_v5 : FVec F S32000x4096 .f32 := broadcastInDim S32000x4096 ![] bcast_S_S32000x4096 main_cst_0
  let main_v6 : IVec S32000x4096 1 := cmpf .olt main_v4 main_v5
  let main_c_1 : IVec S_ 1 := constantI S_ 1 1#1
  let main_v7 : IVec S_ 1 := (fun x v => Host.reduce IntOp.andi x v reducesTo_S32000x4096_S_d0_1 h_S_) main_v6 main_c_1
  let main_v8 : IVec S_ 1 := andi main_v3 main_v7
  let main_c_2 : IVec S_ 32 := constantI S_ 32 4294967196#32
  let main_v9 : IVec S4096 32 := broadcastInDim S4096 ![] bcast_S_S4096 main_c_2
  let main_v10 : IVec S4096 1 := cmpi .eq main_arg2 main_v9
  let main_c_3 : IVec S_ 32 := constantI S_ 32 0#32
  let main_v11 : IVec S4096 32 := broadcastInDim S4096 ![] bcast_S_S4096 main_c_3
  let main_v12 : IVec S4096 1 := cmpi .sge main_arg2 main_v11
  let main_c_4 : IVec S_ 32 := constantI S_ 32 32000#32
  let main_v13 : IVec S4096 32 := broadcastInDim S4096 ![] bcast_S_S4096 main_c_4
  let main_v14 : IVec S4096 1 := cmpi .slt main_arg2 main_v13
  let main_v15 : IVec S4096 1 := andi main_v12 main_v14
  let main_v16 : IVec S4096 1 := ori main_v10 main_v15
  fn_part1 (F := F) main_v8 main_v16
-- ==== Kernel.lean ====
abbrev S4096x4096 : Shape := ⟨2, ![4096, 4096]⟩
abbrev S32000x4096 : Shape := ⟨2, ![32000, 4096]⟩
abbrev S4096 : Shape := ⟨1, ![4096]⟩
abbrev S4096x1 : Shape := ⟨2, ![4096, 1]⟩
abbrev S512x4096 : Shape := ⟨2, ![512, 4096]⟩
abbrev S1280x4096 : Shape := ⟨2, ![1280, 4096]⟩
abbrev S512x1 : Shape := ⟨2, ![512, 1]⟩
abbrev S512x1280 : Shape := ⟨2, ![512, 1280]⟩
abbrev S512 : Shape := ⟨1, ![512]⟩
abbrev S_ : Shape := ⟨0, ![]⟩

abbrev nBuf : Space → Nat
  | .hbm => 24
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S32000x4096, .f32⟩
  | .hbm, ⟨2, _⟩ => ⟨S4096, .i32⟩
  | .hbm, ⟨3, _⟩ => ⟨S4096x4096, .bf16⟩
  | .hbm, ⟨4, _⟩ => ⟨S32000x4096, .bf16⟩
  | .hbm, ⟨5, _⟩ => ⟨S4096x1, .i32⟩
  | .hbm, ⟨6, _⟩ => ⟨S4096x1, .f32⟩
  | .hbm, ⟨7, _⟩ => ⟨S4096, .f32⟩
  | .hbm, ⟨8, _⟩ => ⟨S_, .i32⟩
  | .hbm, ⟨9, _⟩ => ⟨S4096, .i32⟩
  | .hbm, ⟨10, _⟩ => ⟨S4096, .i1⟩
  | .hbm, ⟨11, _⟩ => ⟨S4096, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S512x4096, .bf16⟩
  | .local _ .vmem, ⟨1, _⟩ => ⟨S512x4096, .bf16⟩
  | .local _ .vmem, ⟨2, _⟩ => ⟨S1280x4096, .bf16⟩
  | .local _ .vmem, ⟨3, _⟩ => ⟨S1280x4096, .bf16⟩
  | .local _ .vmem, ⟨4, _⟩ => ⟨S512x1, .i32⟩
  | .local _ .vmem, ⟨5, _⟩ => ⟨S512x1, .i32⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 25], ![false, false]⟩

def k0_cond2 (i : grid0.Coords) : BitVec 1 :=
  let arg1 : BitVec 32 := BitVec.ofNat 32 (i 1).val
  let c24_i32 : BitVec 32 := 24#32
  let v46 : BitVec 1 := Scalar.cmpi .eq arg1 c24_i32
  let v47 : BitVec 32 := Scalar.extui v46
  let c0_i32_24 : BitVec 32 := 0#32
  let v48 : BitVec 1 := Scalar.cmpi .ne v47 c0_i32_24
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bitsLt_bf16_f32 : FTy.bits .bf16 < FTy.bits .f32
  shapeCasts_S4096_S4096x1 : S4096.ShapeCasts S4096x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1280x4096_S1280x4096_0_0 : ∀ a, (![0, 0] : Fin 2 → Nat) a + S1280x4096.size a ≤ S1280x4096.size a
  h_S1280x4096 : 0 < S1280x4096.numel
  shapeCasts_S1280x4096_S1280x4096 : S1280x4096.ShapeCasts S1280x4096
  iota_S512x1280_d1_w32 : S512x1280.Iotas .tc 32 [1]
  broadcasts_S512x1_S512x1280 : S512x1.Broadcasts S512x1280
  reduces_S512x1280_S512 : S512x1280.Reduces [1] S512
  shapeCasts_S512_S512x1 : S512.ShapeCasts S512x1
  shapeCasts_S4096x1_S4096 : S4096x1.ShapeCasts S4096
  bcast_S_S4096 : S_.BroadcastsInDim S4096 (![] : Fin 0 → Fin S4096.rank)
  natLt_1_32 : 1 < 32
  reducesTo_S4096_S_d0 : S4096.ReducesTo [0] S_
  h_S_ : 0 < S_.numel
  dot_S512x4096_S1280x4096_S512x1280_1_1_0_0_n_n_wf : DotDims.WF S512x4096 S1280x4096 S512x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .bf16 = 32 ∨ (Rect.block (s := S4096x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x4096.size a ≤ S32000x4096.size a
  hwx0_1 : ∀ i : grid0.Coords, EltTy.bits .bf16 = 32 ∨ (Rect.block (s := S32000x4096) S1280x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .i32 = 32 ∨ (Rect.block (s := S4096x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)

variable [Facts₀]

def dot_S512x4096_S1280x4096_S512x1280_1_1_0_0_n_n : DotDims S512x4096 S1280x4096 S512x1280 where
  lhsContracting := [1]
  rhsContracting := [1]
  lhsNonContracting := [0]
  rhsNonContracting := [0]
  lhsBatch := []
  rhsBatch := []
  wf := dot_S512x4096_S1280x4096_S512x1280_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1280x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S32000x4096 : Shape := ⟨2, ![32000, 4096]⟩
abbrev S4096 : Shape := ⟨1, ![4096]⟩
abbrev S4096x32000 : Shape := ⟨2, ![4096, 32000]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 64
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S32000x4096, .f32⟩
  | .hbm, ⟨2, _⟩ => ⟨S4096, .i32⟩
  | .hbm, ⟨3, _⟩ => ⟨S4096x32000, .f32⟩
  | .hbm, ⟨4, _⟩ => ⟨S_, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S4096x1, .f32⟩
  | .hbm, ⟨10, _⟩ => ⟨S4096x32000, .f32⟩
  | .hbm, ⟨11, _⟩ => ⟨S4096x32000, .f32⟩
  | .hbm, ⟨12, _⟩ => ⟨S4096x32000, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S4096x32000, .f32⟩
  | .hbm, ⟨18, _⟩ => ⟨S4096x32000, .f32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S_, .i32⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096x1, .i32⟩
  | .hbm, ⟨27, _⟩ => ⟨S_, .i32⟩
  | .hbm, ⟨28, _⟩ => ⟨S4096x1, .i32⟩
  | .hbm, ⟨29, _⟩ => ⟨S4096x1, .i1⟩
  | .hbm, ⟨30, _⟩ => ⟨S_, .i32⟩
  | .hbm, ⟨31, _⟩ => ⟨S4096x1, .i32⟩
  | .hbm, ⟨32, _⟩ => ⟨S4096x1, .i32⟩
  | .hbm, ⟨33, _⟩ => ⟨S4096x1, .i32⟩
  | .hbm, ⟨34, _⟩ => ⟨S4096x1x1, .i32⟩
  | .hbm, ⟨35, _⟩ => ⟨S1, .i32⟩
  | .hbm, ⟨36, _⟩ => ⟨S_, .i32⟩
  | .hbm, ⟨37, _⟩ => ⟨S4096x1x1, .i32⟩
  | .hbm, ⟨38, _⟩ => ⟨S4096x1x1, .i1⟩
  | .hbm, ⟨39, _⟩ => ⟨S1x1x1, .i32⟩
  | .hbm, ⟨40, _⟩ => ⟨S4096x1x1, .i32⟩
  | .hbm, ⟨41, _⟩ => ⟨S4096x1x1, .i1⟩
  | .hbm, ⟨42, _⟩ => ⟨S4096x1x1, .i1⟩
  | .hbm, ⟨43, _⟩ => ⟨S_, .i1⟩
  | .hbm, ⟨44, _⟩ => ⟨S4096x1, .i1⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096, .f32⟩
  | .hbm, ⟨50, _⟩ => ⟨S4096, .f32⟩
  | .hbm, ⟨51, _⟩ => ⟨S4096, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .f32⟩
  | .hbm, ⟨57, _⟩ => ⟨S_, .f32⟩
  | .hbm, ⟨58, _⟩ => ⟨S4096, .f32⟩
  | .hbm, ⟨59, _⟩ => ⟨S4096, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_call1_v0 : Ref sig .tc := ⟨.hbm, 23, rfl⟩
abbrev main_call1_v1 : Ref sig .tc := ⟨.hbm, 24, rfl⟩
abbrev main_v4 : Ref sig .tc := ⟨.hbm, 25, rfl⟩
abbrev main_v5 : Ref sig .tc := ⟨.hbm, 26, rfl⟩
abbrev main_call2_c : Ref sig .tc := ⟨.hbm, 27, rfl⟩
abbrev main_call2_v0 : Ref sig .tc := ⟨.hbm, 28, rfl⟩
abbrev main_call2_v1 : Ref sig .tc := ⟨.hbm, 29, rfl⟩
abbrev main_call2_c_0 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_call2_v5 : Ref sig .tc := ⟨.hbm, 34, rfl⟩
abbrev main_call2_c_1 : Ref sig .tc := ⟨.hbm, 35, rfl⟩
abbrev main_call2_c_2 : Ref sig .tc := ⟨.hbm, 36, rfl⟩
abbrev main_call2_v6 : Ref sig .tc := ⟨.hbm, 37, rfl⟩
abbrev main_call2_v7 : Ref sig .tc := ⟨.hbm, 38, rfl⟩
abbrev main_call2_v8 : Ref sig .tc := ⟨.hbm, 39, rfl⟩
abbrev main_call2_v9 : Ref sig .tc := ⟨.hbm, 40, rfl⟩
abbrev main_call2_v10 : Ref sig .tc := ⟨.hbm, 41, rfl⟩
abbrev main_call2_v11 : Ref sig .tc := ⟨.hbm, 42, rfl⟩
abbrev main_call2_c_3 : Ref sig .tc := ⟨.hbm, 43, rfl⟩
abbrev main_call2_v12 : Ref sig .tc := ⟨.hbm, 44, rfl⟩
abbrev main_call2_v13 : Ref sig .tc := ⟨.hbm, 45, rfl⟩
abbrev main_call2_cst : Ref sig .tc := ⟨.hbm, 46, rfl⟩
abbrev main_call2_v14 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_c_1 : Ref sig .tc := ⟨.hbm, 52, rfl⟩
abbrev main_v10 : Ref sig .tc := ⟨.hbm, 53, rfl⟩
abbrev main_c_2 : Ref sig .tc := ⟨.hbm, 54, rfl⟩
abbrev main_v11 : Ref sig .tc := ⟨.hbm, 55, rfl⟩
abbrev main_cst : Ref sig .tc := ⟨.hbm, 56, rfl⟩
abbrev main_call3_v0 : Ref sig .tc := ⟨.hbm, 57, rfl⟩
abbrev main_call3_v1 : Ref sig .tc := ⟨.hbm, 58, rfl⟩
abbrev main_v12 : Ref sig .tc := ⟨.hbm, 59, rfl⟩
abbrev main_cst_3 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩

abbrev nD : Nat := 1
abbrev τ : Topo := Topo.v7x

variable {F : FTy → Type} [FloatOps F]

class Facts₀ : Prop where
  reducesTo_S4096x32000_S4096_d1 : S4096x32000.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x32000_0_1 : S4096x1.BroadcastsInDim S4096x32000 (![0, 1] : Fin 2 → Fin S4096x32000.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  natLt_1_32 : 1 < 32
  reducesTo_S4096_S_d0 : S4096.ReducesTo [0] S_
  dot_S4096x4096_S32000x4096_S4096x32000_1_1_0_0_n_n_wf : DotDims.WF S4096x4096 S32000x4096 S4096x32000 [1] [1] [0] [0] [] []
  gather_S4096x32000_S4096x1x1_S4096x1_n_1_0_0_1_2_11_wf : GatherDims.WF S4096x32000 S4096x1x1 S4096x1 [] [1] [0] [1] [0] 2 ![1, 1]

variable [Facts₀]

def dot_S4096x4096_S32000x4096_S4096x32000_1_1_0_0_n_n : DotDims S4096x4096 S32000x4096 S4096x32000 where
  lhsContracting := [1]
  rhsContracting := [1]
  lhsNonContracting := [0]
  rhsNonContracting := [0]
  lhsBatch := []
  rhsBatch := []
  wf := dot_S4096x4096_S32000x4096_S4096x32000_1_1_0_0_n_n_wf
def gather_S4096x32000_S4096x1x1_S4096x1_n_1_0_0_1_2_11 : GatherDims S4096x32000 S4096x1x1 S4096x1 where
  offsetDims := []
  collapsedSliceDims := [1]
  operandBatchingDims := [0]
  startIndicesBatchingDims := [0]
  startIndexMap := [1]
  indexVectorDim := 2
  sliceSizes := ![1, 1]
  wf := gather_S4096x32000_S4096x1x1_S4096x1_n_1_0_0_1_2_11_wf

class Facts : Prop extends Facts₀ where

variable [Facts]
-- ==== Proof.Spec.lean ====
/-
  Cross-entropy of a linear head, row by row, over the extended reals.

  For one token the logits are `z j = ∑ h, x p h * w j h` over the 32000 vocabulary entries. The blockwise
  program sweeps the vocabulary in 25 blocks of 1280 columns and carries, per row, a running maximum `m`, a
  running sum `l` of `exp (z j - m)` rescaled whenever the maximum moves, and the sum `lbl` of the logits whose
  column number is the label (at most one column matches). Its result for the row is `-(lbl - m - log l)`.
  The one-pass program subtracts the row maximum, exponentiates, sums, takes the logarithm and reads the
  shifted logit at the label: `-((z y - M) - log ∑ exp (z j - M))`.
  On finite logits and a label inside the vocabulary both are `log (∑ exp z) - z y`.
-/
import Idealize.ShloMosaic.PureOps.Ideal
import Idealize.ShloMosaic.Lib.ValueIdx

noncomputable section

namespace Cert.CE

open Idealize.ShloMosaic Idealize.ShloMosaic.ValueIdx

/-- The logit of token `p` against vocabulary entry `j`: row `p` of the activations times row `j` of the weights. -/
def logit (x : (⟨2, ![4096, 4096]⟩ : Shape).Idx → EReal) (w : (⟨2, ![32000, 4096]⟩ : Shape).Idx → EReal)
    (p : Fin 4096) (j : Fin 32000) : EReal :=
  ∑ h : Fin 4096, x (ix2 p h) * w (ix2 j h)

/-- The vocabulary entry in column `c` of vocabulary block `v`. -/
def col (v : ℕ) (hv : v < 25) (c : Fin 1280) : Fin 32000 :=
  ⟨1280 * v + c.val, by have := c.isLt; omega⟩

/-- One vocabulary block's update of a row's running triple (maximum, rescaled sum of exponentials, label logit). -/
def step (z : Fin 32000 → EReal) (yv : BitVec 32) (v : ℕ) (hv : v < 25) (s : EReal × EReal × EReal) :
    EReal × EReal × EReal :=
  (max s.1 (Finset.univ.fold max ⊥ (fun c : Fin 1280 => z (col v hv c))),
   Ideal.exp (s.1 - max s.1 (Finset.univ.fold max ⊥ (fun c : Fin 1280 => z (col v hv c)))) * s.2.1
     + ∑ c : Fin 1280, Ideal.exp (z (col v hv c) - max s.1 (Finset.univ.fold max ⊥ (fun c : Fin 1280 => z (col v hv c)))),
   s.2.2 + ∑ c : Fin 1280, if yv = BitVec.ofNat 32 (1280 * v + c.val) then z (col v hv c) else 0)

/-- The running triple after the first `n` vocabulary blocks, from (−∞, 0, 0). -/
def stateN (z : Fin 32000 → EReal) (yv : BitVec 32) : (n : ℕ) → n ≤ 25 → EReal × EReal × EReal
  | 0, _ => (⊥, 0, 0)
  | n + 1, h => step z yv n (by omega) (stateN z yv n (by omega))

/-- The blockwise program's loss of one row: `0 - ((lbl - m) - log l)` at the end of the sweep. -/
def nllK (z : Fin 32000 → EReal) (yv : BitVec 32) : EReal :=
  0 - (((stateN z yv 25 le_rfl).2.2 - (stateN z yv 25 le_rfl).1) - Ideal.log (stateN z yv 25 le_rfl).2.1)

/-- The one-pass program's loss of one row at label `j`: minus the shifted logit less the log of the shifted sum. -/
def nllR (z : Fin 32000 → EReal) (j : Fin 32000) : EReal :=
  -((z j - max ⊥ (Finset.univ.fold max ⊥ z))
      - Ideal.log (0 + ∑ k : Fin 32000, Ideal.exp (z k - max ⊥ (Finset.univ.fold max ⊥ z))))

end Cert.CE

end
-- ==== Proof.Tail.lean ====
/-
  The mean over the valid tokens, shared by both programs: rows whose label is the ignore index −100 are replaced by
  zero, the rest are summed, and the sum is divided by the number of valid rows (at least one). The result depends on the
  per-row losses only at the valid rows.
-/
import Idealize.ShloMosaic.PureOps.Ideal
import Idealize.ShloMosaic.Lib.ValueIdx
import Idealize.ShloMosaic.Lib.Affine
import Idealize.ShloMosaic.Lib.StableHlo.Predicate

noncomputable section

namespace Cert.CE

open Idealize.ShloMosaic Idealize.ShloMosaic.ValueIdx

/-- The valid-row bits: the label is not −100. -/
def validBits (hb : (⟨0, ![]⟩ : Shape).BroadcastsInDim (⟨1, ![4096]⟩ : Shape) (![] : Fin 0 → Fin 1))
    (y : IVec (⟨1, ![4096]⟩ : Shape) 32) : IVec (⟨1, ![4096]⟩ : Shape) 1 :=
  cmpi .ne y (broadcastInDim (⟨1, ![4096]⟩ : Shape) ![] hb (constantI (⟨0, ![]⟩ : Shape) 32 4294967196#32))

/-- The masked mean of the per-row losses. -/
def lossTail (hb : (⟨0, ![]⟩ : Shape).BroadcastsInDim (⟨1, ![4096]⟩ : Shape) (![] : Fin 0 → Fin 1))
    (hr : (⟨1, ![4096]⟩ : Shape).ReducesTo [0] (⟨0, ![]⟩ : Shape)) (h0 : 0 < (⟨0, ![]⟩ : Shape).numel) (h1 : 1 < 32)
    (y : IVec (⟨1, ![4096]⟩ : Shape) 32) (nll : FVec Ideal (⟨1, ![4096]⟩ : Shape) .f32) : FVec Ideal (⟨0, ![]⟩ : Shape) .f32 :=
  Host.divf
    (Host.reduceAdd
      (select (validBits hb y) nll
        (broadcastInDim (⟨1, ![4096]⟩ : Shape) ![] hb (id (constant (F := Ideal) (⟨0, ![]⟩ : Shape) .f32 0x00000000#32))))
      (constant (F := Ideal) (⟨0, ![]⟩ : Shape) .f32 0x00000000#32) hr h0)
    (sitofp .f32
      (maxsi (Host.reduce IntOp.addi (extui 32 (validBits hb y) h1) (constantI (⟨0, ![]⟩ : Shape) 32 0#32) hr h0)
        (constantI (⟨0, ![]⟩ : Shape) 32 1#32)))

/-- Two loss vectors that agree on the valid rows have the same masked mean. -/
theorem lossTail_congr (hb) (hr) (h0) (h1) (y : IVec (⟨1, ![4096]⟩ : Shape) 32)
    (a b : FVec Ideal (⟨1, ![4096]⟩ : Shape) .f32)
    (h : ∀ p : Fin 4096, y (ix1 p) ≠ 4294967196#32 → a (ix1 p) = b (ix1 p)) :
    lossTail hb hr h0 h1 y a = lossTail hb hr h0 h1 y b := by
  unfold lossTail
  have e : select (validBits hb y) a
        (broadcastInDim (⟨1, ![4096]⟩ : Shape) ![] hb (id (constant (F := Ideal) (⟨0, ![]⟩ : Shape) .f32 0x00000000#32)))
      = select (validBits hb y) b
        (broadcastInDim (⟨1, ![4096]⟩ : Shape) ![] hb (id (constant (F := Ideal) (⟨0, ![]⟩ : Shape) .f32 0x00000000#32))) := by
    funext i
    obtain ⟨p, rfl⟩ : ∃ p : Fin 4096, i = ix1 p := ⟨i 0, eq_ix1 i⟩
    simp only [select_apply]
    by_cases hy : y (ix1 p) = 4294967196#32
    · have hbit : validBits hb y (ix1 p) = 0#1 := by
        apply eq_zero_of_ne_one
        unfold validBits cmpi
        rw [StableHlo.Predicate.bcast_scalar hb h0]
        intro hne
        exact (IntOp.cmpi_ne.mp hne) hy
      rw [hbit, select_zero, select_zero]
    · have hbit : validBits hb y (ix1 p) = 1#1 := by
        unfold validBits cmpi
        rw [StableHlo.Predicate.bcast_scalar hb h0]
        exact IntOp.cmpi_ne.mpr hy
      rw [hbit, select_one, select_one]
      exact h p hy
  rw [e]

end Cert.CE

end
-- ==== Proof.LogSumExp.lean ====
/-
  Shifted log-sum-exp over the reals, and its two readings over the extended reals.

  For real logits z and any real shift μ,
    (z y - μ) - log (∑ exp (z j - μ)) = z y - log (∑ exp z j),
  because ∑ exp (z j - μ) = exp (-μ) * ∑ exp (z j) and the sum is positive. The blockwise sweep keeps, after
  n blocks, a real shift μ, the rescaled partial sum exp (-μ) * ∑_{j < 1280 n} exp (z j) and the partial label
  sum ∑_{j < 1280 n} [j = y] z j; one block multiplies the old sum by exp (μ - μ') and adds the block's terms at
  the new shift μ'. The shift itself never matters, only that it is real: a maximum of finitely many (at least
  one) reals is real. At n = 25 the partial sums are the full ones and the label sum is z y.
-/
import proofs.«407647_j69217692942469_2_alg».proof.Proof.Spec
import Mathlib.Analysis.SpecialFunctions.Log.Basic
import Mathlib.Analysis.SpecialFunctions.Exp
import Mathlib.Data.EReal.Operations
import Mathlib.Data.Finset.Fold
import Mathlib.Data.Fintype.BigOperators
import Mathlib.Algebra.BigOperators.Fin

noncomputable section

namespace Cert.CE

open Idealize.ShloMosaic Idealize.ShloMosaic.ValueIdx

/-! ### Coercion of reals into the extended reals -/

/-- The coercion commutes with finite sums. -/
theorem coe_sum {ι : Type*} (s : Finset ι) (g : ι → ℝ) :
    ∑ i ∈ s, ((g i : ℝ) : EReal) = ((∑ i ∈ s, g i : ℝ) : EReal) := by
  classical
  refine Finset.induction_on s (by simp) ?_
  intro a s ha ih
  rw [Finset.sum_insert ha, Finset.sum_insert ha, ih, EReal.coe_add]

/-- The coercion commutes with the binary maximum. -/
theorem max_coe (a b : ℝ) : max (a : EReal) (b : EReal) = ((max a b : ℝ) : EReal) :=
  (EReal.coe_strictMono.monotone.map_max).symm

/-- The maximum of finitely many reals, at least one of them, folded from −∞, is a real. -/
theorem fold_max_real {ι : Type*} [Fintype ι] (i₀ : ι) (g : ι → ℝ) :
    ∃ r : ℝ, Finset.univ.fold max (⊥ : EReal) (fun i => ((g i : ℝ) : EReal)) = (r : EReal) := by
  refine ⟨(Finset.univ.fold max (⊥ : EReal) (fun i => ((g i : ℝ) : EReal))).toReal,
    (EReal.coe_toReal ?_ ?_).symm⟩
  · exact ne_of_lt ((Finset.fold_max_lt _).2 ⟨bot_lt_top, fun i _ => EReal.coe_lt_top _⟩)
  · exact ne_of_gt ((Finset.lt_fold_max _).2 (Or.inr ⟨i₀, Finset.mem_univ _, EReal.bot_lt_coe _⟩))

/-! ### Shift invariance -/

/-- A sum of exponentials at shift μ is exp (−μ) times the unshifted sum. -/
theorem sum_exp_shift {ι : Type*} [Fintype ι] (g : ι → ℝ) (μ : ℝ) :
    ∑ i, Ideal.exp (((g i : ℝ) : EReal) - (μ : EReal))
      = ((Real.exp (-μ) * ∑ i, Real.exp (g i) : ℝ) : EReal) := by
  rw [Finset.mul_sum, ← coe_sum]
  refine Finset.sum_congr rfl fun i _ => ?_
  rw [← EReal.coe_sub, Ideal.exp_coe, sub_eq_add_neg, Real.exp_add, mul_comm]

/-- The shifted logit less the log of the shifted sum does not depend on the shift. -/
theorem sub_log_shift (a μ T : ℝ) (hT : 0 < T) :
    (a - μ) - Real.log (Real.exp (-μ) * T) = a - Real.log T := by
  rw [Real.log_mul (Real.exp_pos _).ne' hT.ne', Real.log_exp]; ring

/-- The same over the extended reals. -/
theorem loss_coe (a μ T : ℝ) (hT : 0 < T) :
    ((a : EReal) - (μ : EReal)) - Ideal.log ((Real.exp (-μ) * T : ℝ) : EReal)
      = ((a - Real.log T : ℝ) : EReal) := by
  rw [Ideal.log_coe, if_neg (not_le.2 (mul_pos (Real.exp_pos _) hT)), ← EReal.coe_sub, ← EReal.coe_sub,
    sub_log_shift a μ T hT]

theorem sum_exp_pos (zr : Fin 32000 → ℝ) : 0 < ∑ j, Real.exp (zr j) :=
  Finset.sum_pos (fun i _ => Real.exp_pos _) ⟨⟨0, by norm_num⟩, Finset.mem_univ _⟩

/-! ### The vocabulary as 25 blocks of 1280 columns -/

/-- A function on the vocabulary, extended by zero to all naturals. -/
def ext0 (f : Fin 32000 → ℝ) (k : ℕ) : ℝ := if h : k < 32000 then f ⟨k, h⟩ else 0

theorem sum_ext0_all (f : Fin 32000 → ℝ) :
    ∑ k ∈ Finset.range 32000, ext0 f k = ∑ j : Fin 32000, f j := by
  rw [← Fin.sum_univ_eq_sum_range]
  refine Finset.sum_congr rfl fun j _ => ?_
  simp only [ext0, dif_pos j.isLt]

theorem sum_ext0_block (f : Fin 32000 → ℝ) (v : ℕ) (hv : v < 25) :
    ∑ c ∈ Finset.range 1280, ext0 f (1280 * v + c) = ∑ c : Fin 1280, f (col v hv c) := by
  rw [← Fin.sum_univ_eq_sum_range (fun c => ext0 f (1280 * v + c))]
  refine Finset.sum_congr rfl fun c _ => ?_
  have h : 1280 * v + c.val < 32000 := by have := c.isLt; omega
  simp only [ext0, dif_pos h]
  rfl

/-- The columns below 1280 (n + 1) are those below 1280 n and block n. -/
theorem sum_ext0_succ (f : Fin 32000 → ℝ) (n : ℕ) (hn : n < 25) :
    ∑ k ∈ Finset.range (1280 * (n + 1)), ext0 f k
      = ∑ k ∈ Finset.range (1280 * n), ext0 f k + ∑ c : Fin 1280, f (col n hn c) := by
  rw [mul_add_one, Finset.sum_range_add, sum_ext0_block f n hn]

/-! ### The label -/

theorem ofNat_eq_iff (a b : ℕ) (ha : a < 32000) (hb : b < 32000) :
    BitVec.ofNat 32 a = BitVec.ofNat 32 b ↔ a = b := by
  constructor
  · intro h
    have h' := congrArg BitVec.toNat h
    simp only [BitVec.toNat_ofNat] at h'
    omega
  · rintro rfl; rfl

/-- Within one block the label picks the column whose number it is. -/
theorem label_block (zr : Fin 32000 → ℝ) (j₀ : Fin 32000) (v : ℕ) (hv : v < 25) :
    (∑ c : Fin 1280, if BitVec.ofNat 32 j₀.val = BitVec.ofNat 32 (1280 * v + c.val)
        then ((zr (col v hv c) : ℝ) : EReal) else 0)
      = ((∑ c : Fin 1280, (if col v hv c = j₀ then zr (col v hv c) else 0) : ℝ) : EReal) := by
  rw [← coe_sum]
  refine Finset.sum_congr rfl fun c _ => ?_
  have hc : 1280 * v + c.val < 32000 := by have := c.isLt; omega
  have hiff : (BitVec.ofNat 32 j₀.val = BitVec.ofNat 32 (1280 * v + c.val)) ↔ col v hv c = j₀ := by
    rw [ofNat_eq_iff _ _ j₀.isLt hc, Fin.ext_iff]
    exact eq_comm
  by_cases h : col v hv c = j₀
  · rw [if_pos (hiff.2 h), if_pos h]
  · rw [if_neg (mt hiff.1 h), if_neg h, EReal.coe_zero]

/-! ### One block's update -/

/-- From a real triple one block leads to a real triple. -/
theorem step_coe (zr : Fin 32000 → ℝ) (j₀ : Fin 32000) (v : ℕ) (hv : v < 25) (μ L B : ℝ) :
    ∃ μ' : ℝ, step (fun j => ((zr j : ℝ) : EReal)) (BitVec.ofNat 32 j₀.val) v hv
        ((μ : EReal), (L : EReal), (B : EReal))
      = (((μ' : ℝ) : EReal),
         ((Real.exp (μ - μ') * L + Real.exp (-μ') * ∑ c : Fin 1280, Real.exp (zr (col v hv c)) : ℝ) : EReal),
         ((B + ∑ c : Fin 1280, (if col v hv c = j₀ then zr (col v hv c) else 0) : ℝ) : EReal)) := by
  obtain ⟨b, hb⟩ := fold_max_real (⟨0, by norm_num⟩ : Fin 1280) (fun c => zr (col v hv c))
  refine ⟨max μ b, ?_⟩
  simp only [step]
  rw [hb, max_coe, sum_exp_shift (fun c => zr (col v hv c)), label_block, ← EReal.coe_sub, Ideal.exp_coe,
    ← EReal.coe_mul, ← EReal.coe_add, ← EReal.coe_add]

/-- From the initial triple (−∞, 0, 0) one block leads to a real triple. -/
theorem step_bot (zr : Fin 32000 → ℝ) (j₀ : Fin 32000) (v : ℕ) (hv : v < 25) :
    ∃ μ' : ℝ, step (fun j => ((zr j : ℝ) : EReal)) (BitVec.ofNat 32 j₀.val) v hv (⊥, 0, 0)
      = (((μ' : ℝ) : EReal),
         ((Real.exp (-μ') * ∑ c : Fin 1280, Real.exp (zr (col v hv c)) : ℝ) : EReal),
         ((∑ c : Fin 1280, (if col v hv c = j₀ then zr (col v hv c) else 0) : ℝ) : EReal)) := by
  obtain ⟨b, hb⟩ := fold_max_real (⟨0, by norm_num⟩ : Fin 1280) (fun c => zr (col v hv c))
  refine ⟨b, ?_⟩
  simp only [step]
  rw [hb, max_eq_right bot_le, sum_exp_shift (fun c => zr (col v hv c)), label_block, EReal.bot_sub,
    Ideal.exp_bot, zero_mul, zero_add, zero_add]

/-! ### The sweep -/

/-- After n + 1 blocks the triple is (μ, exp (−μ) · partial sum of exponentials, partial label sum), μ real. -/
theorem stateN_coe (zr : Fin 32000 → ℝ) (j₀ : Fin 32000) (n : ℕ) : ∀ (h : n + 1 ≤ 25), ∃ μ : ℝ,
    stateN (fun j => ((zr j : ℝ) : EReal)) (BitVec.ofNat 32 j₀.val) (n + 1) h
      = (((μ : ℝ) : EReal),
         ((Real.exp (-μ) * ∑ k ∈ Finset.range (1280 * (n + 1)), ext0 (fun j => Real.exp (zr j)) k : ℝ) : EReal),
         ((∑ k ∈ Finset.range (1280 * (n + 1)), ext0 (fun j => if j = j₀ then zr j else 0) k : ℝ) : EReal)) := by
  induction n with
  | zero =>
    intro h
    obtain ⟨μ, hμ⟩ := step_bot zr j₀ 0 (by omega)
    refine ⟨μ, ?_⟩
    show step _ _ 0 _ (⊥, 0, 0) = _
    rw [hμ, sum_ext0_succ _ 0 (by omega), sum_ext0_succ _ 0 (by omega)]
    simp
  | succ n ih =>
    intro h
    obtain ⟨μ, hμ⟩ := ih (by omega)
    obtain ⟨μ', hμ'⟩ := step_coe zr j₀ (n + 1) (by omega) μ
      (Real.exp (-μ) * ∑ k ∈ Finset.range (1280 * (n + 1)), ext0 (fun j => Real.exp (zr j)) k)
      (∑ k ∈ Finset.range (1280 * (n + 1)), ext0 (fun j => if j = j₀ then zr j else 0) k)
    refine ⟨μ', ?_⟩
    show step _ _ (n + 1) _ (stateN _ _ (n + 1) _) = _
    rw [hμ, hμ', sum_ext0_succ _ (n + 1) (by omega), sum_ext0_succ _ (n + 1) (by omega)]
    have e : Real.exp (μ - μ') * Real.exp (-μ) = Real.exp (-μ') := by
      rw [← Real.exp_add]; congr 1; ring
    rw [← mul_assoc, e, ← mul_add]

/-! ### The two losses -/

theorem nllK_eq (zr : Fin 32000 → ℝ) (j₀ : Fin 32000) :
    nllK (fun j => ((zr j : ℝ) : EReal)) (BitVec.ofNat 32 j₀.val)
      = ((Real.log (∑ j : Fin 32000, Real.exp (zr j)) - zr j₀ : ℝ) : EReal) := by
  obtain ⟨μ, hμ⟩ := stateN_coe zr j₀ 24 le_rfl
  have hμ' : stateN (fun j => ((zr j : ℝ) : EReal)) (BitVec.ofNat 32 j₀.val) 25 le_rfl = _ := hμ
  have e : 1280 * (24 + 1) = 32000 := by norm_num
  rw [e, sum_ext0_all, sum_ext0_all, Finset.sum_ite_eq' Finset.univ j₀, if_pos (Finset.mem_univ _)] at hμ'
  simp only [nllK, hμ']
  rw [loss_coe _ _ _ (sum_exp_pos zr), ← EReal.coe_zero, ← EReal.coe_sub]
  congr 1; ring

theorem nllR_eq (zr : Fin 32000 → ℝ) (j₀ : Fin 32000) :
    nllR (fun j => ((zr j : ℝ) : EReal)) j₀
      = ((Real.log (∑ j : Fin 32000, Real.exp (zr j)) - zr j₀ : ℝ) : EReal) := by
  obtain ⟨M, hM⟩ := fold_max_real (⟨0, by norm_num⟩ : Fin 32000) zr
  simp only [nllR]
  rw [hM, max_eq_right bot_le, sum_exp_shift zr M, zero_add, loss_coe _ _ _ (sum_exp_pos zr), ← EReal.coe_neg, neg_sub]

/-- Real activations and weights give real logits. -/
theorem logit_coe (x : (⟨2, ![4096, 4096]⟩ : Idealize.ShloMosaic.Shape).Idx → EReal)
    (w : (⟨2, ![32000, 4096]⟩ : Idealize.ShloMosaic.Shape).Idx → EReal)
    (hx : ∀ i, ∃ r : ℝ, x i = (r : EReal)) (hw : ∀ i, ∃ r : ℝ, w i = (r : EReal)) (p : Fin 4096) :
    ∃ zr : Fin 32000 → ℝ, logit x w p = fun j => ((zr j : ℝ) : EReal) := by
  choose rx hrx using hx
  choose rw' hrw using hw
  refine ⟨fun j => ∑ h : Fin 4096, rx (ix2 p h) * rw' (ix2 j h), ?_⟩
  funext j
  simp only [logit]
  rw [← coe_sum]
  refine Finset.sum_congr rfl fun h _ => ?_
  rw [hrx, hrw, EReal.coe_mul]

end Cert.CE

end
-- ==== Proof.PreDecode.lean ====
/-
  The printed precondition, decoded: the three `jnp.all` conjuncts of the predicate, each a reduction by `and` of a
  one-bit array into the scalar shape, say that every element of the two float operands is a real (its absolute value is
  strictly below +∞) and that every label is the word of −100 or a word whose value is below 32000.
-/
import proofs.«407647_j69217692942469_2_alg».proof.Pre_finite_inputs
import Idealize.ShloMosaic.PureOps.Ideal
import Idealize.ShloMosaic.Lib.ValueIdx
import Idealize.ShloMosaic.Lib.ReduceAll
import Idealize.ShloMosaic.Lib.StableHlo.Predicate

namespace Cert.CE

open Idealize.ShloMosaic Idealize.ShloMosaic.ValueIdx

/-- The scalar shape has exactly one index: two of them agree at every axis, there being none. -/
instance subsingleton_scalarIdx : Subsingleton Cert.Pre_finite_inputs.S_.Idx :=
  ⟨fun _ _ => funext fun d => d.elim0⟩

/-- The single-precision pattern with all exponent bits set and no fraction bit denotes +∞. -/
theorem ofBits_posInf : Ideal.ofBits .f32 0x7F800000#32 = (⊤ : EReal) := by
  simp [Ideal.ofBits, Ideal.ieee]

/-- An extended real whose absolute value `max a (-a)` compares strictly below +∞ is a real: at −∞ the absolute value
    is +∞ (the negation of −∞), at +∞ it is +∞ itself, and +∞ is not below +∞. -/
theorem real_of_abs_lt_posInf (a : EReal)
    (h : Ideal.cmp .olt (max a (-a)) (Ideal.ofBits .f32 0x7F800000#32) = 1#1) : ∃ r : ℝ, a = (r : EReal) := by
  rw [ofBits_posInf] at h
  simp only [Ideal.cmp, StableHlo.Predicate.ofBool_eq_one_iff, decide_eq_true_eq] at h
  induction a using EReal.rec with
  | bot => simp at h
  | coe r => exact ⟨r, rfl⟩
  | top => simp at h

/-- A 32-bit word that is the word of −100, or is at least 0 and below 32000 read signed, is the word of −100 or has a
    value below 32000: a word that is nonnegative read signed has its top bit clear, so its signed and unsigned
    readings agree. -/
theorem label_of_bits (v : BitVec 32)
    (h : IntOp.ori (IntOp.cmpi .eq v 4294967196#32) (IntOp.andi (IntOp.cmpi .sge v 0#32) (IntOp.cmpi .slt v 32000#32)) = 1#1) :
    v = 4294967196#32 ∨ v.toNat < 32000 := by
  rcases IntOp.ori_eq_one.1 h with he | hr
  · exact Or.inl (IntOp.cmpi_eq.1 he)
  · obtain ⟨hge, hlt⟩ := IntOp.andi_eq_one.1 hr
    have h0 := IntOp.cmpi_sge.1 hge
    have h1 := IntOp.cmpi_slt.1 hlt
    have e0 : (0#32 : BitVec 32).toInt = 0 := by decide
    have e1 : (32000#32 : BitVec 32).toInt = 32000 := by decide
    rw [e0] at h0
    rw [e1] at h1
    rw [BitVec.toInt_eq_toNat_cond] at h0 h1
    refine Or.inr ?_
    split at h0 <;> omega

theorem pre_decode [Cert.Pre_finite_inputs.Facts]
    (x : (⟨2, ![4096, 4096]⟩ : Shape).Idx → EReal) (w : (⟨2, ![32000, 4096]⟩ : Shape).Idx → EReal) (y : (⟨1, ![4096]⟩ : Shape).Idx → BitVec 32)
    (h : Cert.Pre_finite_inputs.fn (F := Ideal) x w y = fun _ => 1#1) :
    (∀ i, ∃ r : ℝ, x i = (r : EReal)) ∧ (∀ i, ∃ r : ℝ, w i = (r : EReal))
      ∧ (∀ p : Fin 4096, y (ix1 p) = 4294967196#32 ∨ (y (ix1 p)).toNat < 32000) := by
  -- the predicate at the scalar shape's one index
  have h0 := congrFun h ix0
  dsimp only [Cert.Pre_finite_inputs.fn, Cert.Pre_finite_inputs.fn_part1] at h0
  -- the outer conjunctions: (all of x ∧ all of w) ∧ all of the labels
  obtain ⟨hxw, hy⟩ := IntOp.andi_eq_one.1 h0
  obtain ⟨hx, hw⟩ := IntOp.andi_eq_one.1 hxw
  refine ⟨fun i => ?_, fun i => ?_, fun p => ?_⟩
  · exact real_of_abs_lt_posInf (x i) (Host.reduce_andi_all _ _ _ _ _ hx i)
  · exact real_of_abs_lt_posInf (w i) (Host.reduce_andi_all _ _ _ _ _ hw i)
  · exact label_of_bits (y (ix1 p)) (Host.reduce_andi_all _ _ _ _ _ hy (ix1 p))

end Cert.CE
-- ==== Proof.RefRow.lean ====
/-
  The one-pass cross-entropy program, read at one row.

  For token `p` the program forms the logits `z j = ∑ h, x p h * w j h`, takes the row maximum
  `M = max ⊥ (fold max ⊥ z)`, the shifted logits `z j - M`, their exponentials' sum `s = 0 + ∑ k, exp (z k - M)`
  and the log-probabilities `(z j - M) - log s`. A label that is not the ignore word −100 is kept by the validity
  select; a label below the vocabulary size 32000 is non-negative as a signed word, so the negative-index wrap leaves
  it alone, the in-range test 0 ≤ idx ≤ 31999 passes, and the clamp of the gather's start index is the identity:
  the gather reads the log-probability at (p, label). The row's result is its negation.
-/
import proofs.«407647_j69217692942469_2_alg».proof.Proof.RefRead
import proofs.«407647_j69217692942469_2_alg».proof.Proof.Spec
import Idealize.ShloMosaic.Lib.ValueIdx
import Idealize.ShloMosaic.Lib.StableHlo.Predicate
import Idealize.ShloMosaic.PureOps.Ideal.Laws
import Idealize.ShloMosaic.PureOps.Reduce
import Idealize.ShloMosaic.PureOps.ShapeOps
import Idealize.ShloMosaic.PureOps.Dims
import Mathlib.Data.Finset.Fold
import Mathlib.Data.Finset.BooleanAlgebra
import Mathlib.Algebra.BigOperators.Group.Finset.Basic

noncomputable section

namespace Cert.CE

open Idealize.ShloMosaic Idealize.ShloMosaic.ValueIdx Cert.ReferenceIdeal Cert.ReferenceIdeal.Gen
open Cert.ReferenceIdeal.ReadP

/-- The product of activations and weights at row `p`, vocabulary entry `j`, is the logit. -/
theorem logits_at (x : (⟨2, ![4096, 4096]⟩ : Shape).Idx → EReal) (w : (⟨2, ![32000, 4096]⟩ : Shape).Idx → EReal)
    (p : Fin 4096) (j : Fin 32000) :
    val_main_v0 (F := Ideal) x w (ix2 p j) = logit x w p j := by
  rw [val_main_v0_apply]
  unfold logit
  refine Finset.sum_congr rfl fun h _ => ?_
  have el : lidx_main_v0 (ix2 p j) h = ix2 p h :=
    funext fun a => Fin.ext (by match a with | ⟨0, _⟩ => rfl | ⟨1, _⟩ => rfl)
  have er : ridx_main_v0 (ix2 p j) h = ix2 j h :=
    funext fun a => Fin.ext (by match a with | ⟨0, _⟩ => rfl | ⟨1, _⟩ => rfl)
  rw [el, er]

/-- Row `p` of the reduced array with column `k` put back is entry (p, k). -/
theorem lift_row (h : S4096x32000.Reduces [1] S4096) (p : Fin 4096) (k : Fin (S4096x32000.size 1)) :
    h.lift (ix1 p) k = ix2 p (⟨k.val, k.isLt⟩ : Fin 32000) := by
  funext c; apply Fin.ext
  match c with
  | ⟨0, _⟩ => rfl
  | ⟨1, _⟩ => rfl

/-- The pattern of minus infinity denotes the bottom element. -/
theorem ninf_eq : Ideal.ofBits .f32 0xFF800000#32 = (⊥ : EReal) := by simp [Ideal.ofBits, Ideal.ieee]

/-- The maximum-reduce over the vocabulary axis at row `p`: the fold of `max` from the bottom over the row's logits. -/
theorem rowmax_at (x : (⟨2, ![4096, 4096]⟩ : Shape).Idx → EReal) (w : (⟨2, ![32000, 4096]⟩ : Shape).Idx → EReal)
    (p : Fin 4096) :
    val_main_call0_v0 (F := Ideal) x w (ix1 p) = Finset.univ.fold max ⊥ (logit x w p) := by
  unfold val_main_call0_v0
  have h : S4096x32000.Reduces [1] S4096 := by decide
  rw [Host.reduce_eq_fold_single FloatOps.maximumf _ _ reducesTo_S4096x32000_S4096_d1 h h_S_]
  show Finset.fold max (Ideal.ofBits .f32 0xFF800000#32)
    (fun k : Fin 32000 => val_main_v0 (F := Ideal) x w (h.lift (ix1 p) k)) Finset.univ = _
  rw [ninf_eq]
  refine congrArg (fun f => Finset.fold max (⊥ : EReal) f (Finset.univ : Finset (Fin 32000))) (funext fun k => ?_)
  rw [lift_row h p k]
  exact logits_at x w p k

/-- The row maximum the program subtracts: the larger of minus infinity and the reduced maximum. -/
theorem M_at (x : (⟨2, ![4096, 4096]⟩ : Shape).Idx → EReal) (w : (⟨2, ![32000, 4096]⟩ : Shape).Idx → EReal)
    (p : Fin 4096) :
    val_main_call0_v2 (F := Ideal) x w (ix1 p) = max ⊥ (Finset.univ.fold max ⊥ (logit x w p)) := by
  rw [val_main_call0_v2_apply, val_main_call0_v1_apply, val_main_call0_cst_0_apply, rowmax_at]
  simp only [Ideal.maximumf_def, Ideal.ofBits_def]
  rw [ninf_eq]

/-- The shifted logit at (p, j): the logit less the row maximum. -/
theorem shifted_at (x : (⟨2, ![4096, 4096]⟩ : Shape).Idx → EReal) (w : (⟨2, ![32000, 4096]⟩ : Shape).Idx → EReal)
    (p : Fin 4096) (j : Fin 32000) :
    val_main_call0_v5 (F := Ideal) x w (ix2 p j)
      = logit x w p j - max ⊥ (Finset.univ.fold max ⊥ (logit x w p)) := by
  have e : idx_main_call0_v3 (idx_main_call0_v4 (ix2 p j)) = ix1 p :=
    funext fun a => Fin.ext (by match a with | ⟨0, _⟩ => rfl)
  rw [val_main_call0_v5_apply, val_main_call0_v4_apply, val_main_call0_v3_apply, e, M_at, logits_at]
  simp only [Ideal.subf_def]

/-- The sum of the exponentials of row `p`'s shifted logits, from zero. -/
theorem expsum_at (x : (⟨2, ![4096, 4096]⟩ : Shape).Idx → EReal) (w : (⟨2, ![32000, 4096]⟩ : Shape).Idx → EReal)
    (p : Fin 4096) :
    val_main_call0_v7 (F := Ideal) x w (ix1 p)
      = 0 + ∑ k : Fin 32000, Ideal.exp (logit x w p k - max ⊥ (Finset.univ.fold max ⊥ (logit x w p))) := by
  rw [val_main_call0_v7_apply, val_main_call0_cst_1_apply]
  simp only [Ideal.ofBits_def, Ideal.ofBits_zero_f32]
  refine congrArg (0 + ·) (Finset.sum_congr rfl fun k _ => ?_)
  have e : idx_main_call0_v7 (ix1 p) k = ix2 p k :=
    funext fun a => Fin.ext (by match a with | ⟨0, _⟩ => rfl | ⟨1, _⟩ => rfl)
  rw [e, val_main_call0_v6_apply, shifted_at]
  simp only [Ideal.hostUnary_exp_def]

/-- The log-probability at (p, j): the shifted logit less the logarithm of the row's sum of exponentials. -/
theorem logp_at (x : (⟨2, ![4096, 4096]⟩ : Shape).Idx → EReal) (w : (⟨2, ![32000, 4096]⟩ : Shape).Idx → EReal)
    (p : Fin 4096) (j : Fin 32000) :
    val_main_v1 (F := Ideal) x w (ix2 p j)
      = (logit x w p j - max ⊥ (Finset.univ.fold max ⊥ (logit x w p)))
        - Ideal.log (0 + ∑ k : Fin 32000, Ideal.exp (logit x w p k - max ⊥ (Finset.univ.fold max ⊥ (logit x w p)))) := by
  have e : idx_main_call0_v8 (idx_main_call0_v10 (ix2 p j)) = ix1 p :=
    funext fun a => Fin.ext (by match a with | ⟨0, _⟩ => rfl)
  rw [val_main_v1_apply, val_main_call0_v10_apply, val_main_call0_v9_apply, val_main_call0_v8_apply, e, expsum_at, shifted_at]
  simp only [Ideal.subf_def, Ideal.hostUnary_log_def]

/-- A label that is not the ignore word passes the validity test, so the safe label at row `p` is the label. -/
theorem ysafe_at (y : (⟨1, ![4096]⟩ : Shape).Idx → BitVec 32) (p : Fin 4096) (hv : y (ix1 p) ≠ 4294967196#32) :
    val_main_v5 (F := Ideal) y (ix2 p (0 : Fin 1)) = y (ix1 p) := by
  have e : idx_main_v5 (ix2 p (0 : Fin 1)) = ix1 p :=
    funext fun a => Fin.ext (by match a with | ⟨0, _⟩ => rfl)
  have hne : IntOp.cmpi .ne (y (ix1 p)) 4294967196#32 = 1#1 := by
    unfold IntOp.cmpi
    show BitVec.ofBool (y (ix1 p) != 4294967196#32) = 1#1
    rw [bne_iff_ne.mpr hv]
    rfl
  rw [val_main_v5_apply, e, val_main_v4_apply, val_main_v3_apply, val_main_v2_apply, val_main_c_apply, hne, select_one]

/-- A label below the vocabulary size is not negative as a signed word, so the index word at row `p` is the label. -/
theorem idx_at (y : (⟨1, ![4096]⟩ : Shape).Idx → BitVec 32) (p : Fin 4096) (hv : y (ix1 p) ≠ 4294967196#32)
    (hr : (y (ix1 p)).toNat < 32000) :
    val_main_call2_v5 (F := Ideal) y (ix3 p (0 : Fin 1) (0 : Fin 1)) = y (ix1 p) := by
  have e : idx_main_call2_v5 (ix3 p (0 : Fin 1) (0 : Fin 1)) = ix2 p (0 : Fin 1) :=
    funext fun a => Fin.ext (by
      match a with
      | ⟨0, _⟩ =>
        show ((p.val * 1 + 0) * 1 + 0) / 1 = p.val
        omega
      | ⟨1, _⟩ => rfl)
  have hlt : ¬ IntOp.cmpi .slt (y (ix1 p)) 0#32 = 1#1 := by
    rw [StableHlo.Predicate.slt_iff_toNat (by omega) (by decide)]
    simp
  rw [val_main_call2_v5_apply, e, val_main_call2_v4_apply, val_main_call2_v1_apply, ysafe_at y p hv,
    val_main_call2_v0_apply, val_main_call2_c_apply, eq_zero_of_ne_one hlt, select_zero]

/-- The in-range test at row `p` passes: the index word lies between 0 and 31999. -/
theorem inrange_at (y : (⟨1, ![4096]⟩ : Shape).Idx → BitVec 32) (p : Fin 4096) (hv : y (ix1 p) ≠ 4294967196#32)
    (hr : (y (ix1 p)).toNat < 32000) :
    val_main_call2_v11 (F := Ideal) y (ix3 p (0 : Fin 1) (0 : Fin 1)) = 1#1 := by
  have hge : IntOp.cmpi .sge (y (ix1 p)) 0#32 = 1#1 :=
    (StableHlo.Predicate.sge_iff_toNat (by omega) (by decide)).2 (by simp)
  have hle : IntOp.cmpi .sle (y (ix1 p)) 31999#32 = 1#1 :=
    (StableHlo.Predicate.sle_iff_toNat (by omega) (by decide)).2 (by
      show (y (ix1 p)).toNat ≤ 31999
      omega)
  rw [val_main_call2_v11_apply, val_main_call2_v7_apply, val_main_call2_v10_apply, idx_at y p hv hr,
    val_main_call2_v6_apply, val_main_call2_c_2_apply, val_main_call2_v9_apply, val_main_call2_v8_apply,
    val_main_call2_c_1_apply, hge, hle]
  rfl

/-- Entry (p, 0) of the reduced mask with the unit coordinate put back is entry (p, 0, 0). -/
theorem lift_unit (h : S4096x1x1.Reduces [2] S4096x1) (p : Fin 4096) (k : Fin (S4096x1x1.size 2)) :
    h.lift (ix2 p (0 : Fin 1)) k = ix3 p (0 : Fin 1) (0 : Fin 1) := by
  funext c; apply Fin.ext
  match c with
  | ⟨0, _⟩ => rfl
  | ⟨1, _⟩ => rfl
  | ⟨2, _⟩ =>
    have hk : k.val < 1 := k.isLt
    show k.val = 0
    omega

/-- The mask at row `p`: the and-reduce over the unit axis of the in-range test, which passes. -/
theorem mask_at (y : (⟨1, ![4096]⟩ : Shape).Idx → BitVec 32) (p : Fin 4096) (hv : y (ix1 p) ≠ 4294967196#32)
    (hr : (y (ix1 p)).toNat < 32000) :
    val_main_call2_v12 (F := Ideal) y (ix2 p (0 : Fin 1)) = 1#1 := by
  unfold val_main_call2_v12
  have h : S4096x1x1.Reduces [2] S4096x1 := by decide
  rw [Host.reduce_eq_fold_single IntOp.andi _ _ reducesTo_S4096x1x1_S4096x1_d2 h h_S_]
  show Finset.fold IntOp.andi (1#1)
    (fun k : Fin 1 => val_main_call2_v11 (F := Ideal) y (h.lift (ix2 p (0 : Fin 1)) k)) Finset.univ = 1#1
  have hf : (fun k : Fin 1 => val_main_call2_v11 (F := Ideal) y (h.lift (ix2 p (0 : Fin 1)) k)) = fun _ => 1#1 :=
    funext fun k => by rw [lift_unit h p k]; exact inrange_at y p hv hr
  rw [hf, Finset.univ_unique, Finset.fold_singleton]
  rfl

/-- The gather at row `p` reads the log-probabilities at (p, label): the batching axis carries the row, the start
    index on the vocabulary axis is the index word read signed and clamped into [0, 31999], which it already lies in. -/
theorem gathered_at (x : (⟨2, ![4096, 4096]⟩ : Shape).Idx → EReal) (w : (⟨2, ![32000, 4096]⟩ : Shape).Idx → EReal)
    (y : (⟨1, ![4096]⟩ : Shape).Idx → BitVec 32) (p : Fin 4096)
    (hv : y (ix1 p) ≠ 4294967196#32) (hr : (y (ix1 p)).toNat < 32000) :
    val_main_call2_v13 (F := Ideal) x w y (ix2 p (0 : Fin 1))
      = val_main_v1 (F := Ideal) x w (ix2 p (⟨(y (ix1 p)).toNat, hr⟩ : Fin 32000)) := by
  unfold val_main_call2_v13 Host.gather
  refine congrArg (val_main_v1 (F := Ideal) x w) ?_
  funext a
  refine Fin.ext ?_
  match a with
  | ⟨0, _⟩ =>
    show gather_S4096x32000_S4096x1x1_S4096x1_n_1_0_0_1_2_11.start (ix2 p (0 : Fin 1)) (val_main_call2_v5 (F := Ideal) y) 0
      + gather_S4096x32000_S4096x1x1_S4096x1_n_1_0_0_1_2_11.batchCoord (ix2 p (0 : Fin 1)) 0
      + gather_S4096x32000_S4096x1x1_S4096x1_n_1_0_0_1_2_11.offCoord (ix2 p (0 : Fin 1)) 0 = p.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin S4096x32000.rank) ∈ gather_S4096x32000_S4096x1x1_S4096x1_n_1_0_0_1_2_11.operandBatchingDims
      from List.mem_singleton.mpr rfl)]
    rfl
  | ⟨1, _⟩ =>
    show gather_S4096x32000_S4096x1x1_S4096x1_n_1_0_0_1_2_11.start (ix2 p (0 : Fin 1)) (val_main_call2_v5 (F := Ideal) y) 1
      + gather_S4096x32000_S4096x1x1_S4096x1_n_1_0_0_1_2_11.batchCoord (ix2 p (0 : Fin 1)) 1
      + gather_S4096x32000_S4096x1x1_S4096x1_n_1_0_0_1_2_11.offCoord (ix2 p (0 : Fin 1)) 1 = (y (ix1 p)).toNat
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin S4096x32000.rank) ∈ gather_S4096x32000_S4096x1x1_S4096x1_n_1_0_0_1_2_11.startIndexMap
      from List.mem_singleton.mpr rfl)]
    have hsi : gather_S4096x32000_S4096x1x1_S4096x1_n_1_0_0_1_2_11.siIdx (ix2 p (0 : Fin 1))
        ⟨List.idxOf (1 : Fin S4096x32000.rank) gather_S4096x32000_S4096x1x1_S4096x1_n_1_0_0_1_2_11.startIndexMap,
          List.idxOf_lt_length_iff.2 (List.mem_singleton.mpr rfl)⟩ = ix3 p (0 : Fin 1) (0 : Fin 1) := by
      funext b; refine Fin.ext ?_
      match b with
      | ⟨0, _⟩ => rfl
      | ⟨1, _⟩ => rfl
      | ⟨2, _⟩ => rfl
    rw [hsi, idx_at y p hv hr, StableHlo.Predicate.toInt_eq_toNat_of_lt (by omega), Int.toNat_natCast]
    show min (y (ix1 p)).toNat (32000 - 1) = (y (ix1 p)).toNat
    omega

/-- Row `p` of the one-pass program's result, at a label that is not the ignore word and lies inside the vocabulary:
    minus the log-probability at the label. -/
theorem ref_row (x : (⟨2, ![4096, 4096]⟩ : Shape).Idx → EReal) (w : (⟨2, ![32000, 4096]⟩ : Shape).Idx → EReal)
    (y : (⟨1, ![4096]⟩ : Shape).Idx → BitVec 32) (p : Fin 4096)
    (hv : y (ix1 p) ≠ 4294967196#32) (hr : (y (ix1 p)).toNat < 32000) :
    Cert.ReferenceIdeal.ReadP.val_main_v8 (F := Ideal) x w y (ix1 p) = nllR (logit x w p) ⟨(y (ix1 p)).toNat, hr⟩ := by
  have e : idx_main_v7 (ix1 p) = ix2 p (0 : Fin 1) :=
    funext fun a => Fin.ext (by
      match a with
      | ⟨0, _⟩ =>
        show p.val / 1 = p.val
        omega
      | ⟨1, _⟩ => rfl)
  rw [val_main_v8_apply, val_main_v7_apply, e, val_main_v6_apply, mask_at y p hv hr, select_one,
    gathered_at x w y p hv hr, logp_at]
  rfl

end Cert.CE

end
-- ==== Proof.RefRunHand.lean ====
/-
  The one-pass program's run: its sixty-one host operations in order, from any memory, terminate with the result buffer at
  the composition of the per-operation stages and the three argument arrays as launched. An operation of a called function
  reads and writes its buffers through the buffer's own type; a value moved to that type and back, or along an equation
  between a literal buffer's type and itself, is unchanged, so each operation's result is its stage applied to the earlier
  stages.
-/
import proofs.«407647_j69217692942469_2_alg».proof.Proof.RefRun
import proofs.«407647_j69217692942469_2_alg».proof.Proof.RefRead

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.ValueP

variable {F : FTy → Type} [FloatOps F]

/-- Moving contents to a buffer's own type and back is the identity. -/
theorem ofBuf_toBuf {T : BufTy} (x : TRef sig T) (v : T.Contents (Elt F)) : x.ofBuf (x.toBuf v) = v := by
  obtain ⟨r, h, h1, h2⟩ := x
  subst h
  rfl

/-! A literal buffer's own type is the carried type: moving contents along that equation changes nothing. -/
theorem toBuf_main_v12 (p1 p2 p3) (v : (⟨S4096, .f32⟩ : BufTy).Contents (Elt F)) :
    (TRef.of (T := ⟨S4096, .f32⟩) main_v12 p1 p2 p3).toBuf v = v := rfl
theorem toBuf_main_v6 (p1 p2 p3) (v : (⟨S4096x1, .f32⟩ : BufTy).Contents (Elt F)) :
    (TRef.of (T := ⟨S4096x1, .f32⟩) main_v6 p1 p2 p3).toBuf v = v := rfl
theorem toBuf_main_call2_v4 (p1 p2 p3) (v : (⟨S4096x1, .i32⟩ : BufTy).Contents (Elt F)) :
    (TRef.of (T := ⟨S4096x1, .i32⟩) main_call2_v4 p1 p2 p3).toBuf v = v := rfl
theorem toBuf_main_v4 (p1 p2 p3) (v : (⟨S4096, .i32⟩ : BufTy).Contents (Elt F)) :
    (TRef.of (T := ⟨S4096, .i32⟩) main_v4 p1 p2 p3).toBuf v = v := rfl
theorem ofBuf_main_v3 (p1 p2 p3) (v : (⟨S4096, .i1⟩ : BufTy).Contents (Elt F)) :
    (TRef.of (T := ⟨S4096, .i1⟩) main_v3 p1 p2 p3).ofBuf v = v := rfl
theorem ofBuf_main_v8 (p1 p2 p3) (v : (⟨S4096, .f32⟩ : BufTy).Contents (Elt F)) :
    (TRef.of (T := ⟨S4096, .f32⟩) main_v8 p1 p2 p3).ofBuf v = v := rfl
theorem ofBuf_main_call2_v5 (p1 p2 p3) (v : (⟨S4096x1x1, .i32⟩ : BufTy).Contents (Elt F)) :
    (TRef.of (T := ⟨S4096x1x1, .i32⟩) main_call2_v5 p1 p2 p3).ofBuf v = v := rfl
theorem ofBuf_main_v5 (p1 p2 p3) (v : (⟨S4096x1, .i32⟩ : BufTy).Contents (Elt F)) :
    (TRef.of (T := ⟨S4096x1, .i32⟩) main_v5 p1 p2 p3).ofBuf v = v := rfl
theorem ofBuf_main_arg2 (p1 p2 p3) (v : (⟨S4096, .i32⟩ : BufTy).Contents (Elt F)) :
    (TRef.of (T := ⟨S4096, .i32⟩) main_arg2 p1 p2 p3).ofBuf v = v := rfl
theorem ofBuf_main_c_0 (p1 p2 p3) (v : (⟨S_, .i32⟩ : BufTy).Contents (Elt F)) :
    (TRef.of (T := ⟨S_, .i32⟩) main_c_0 p1 p2 p3).ofBuf v = v := rfl
theorem ofBuf_main_v0 (p1 p2 p3) (v : (⟨S4096x32000, .f32⟩ : BufTy).Contents (Elt F)) :
    (TRef.of (T := ⟨S4096x32000, .f32⟩) main_v0 p1 p2 p3).ofBuf v = v := rfl
theorem ofBuf_main_cst (p1 p2 p3) (v : (⟨S_, .f32⟩ : BufTy).Contents (Elt F)) :
    (TRef.of (T := ⟨S_, .f32⟩) main_cst p1 p2 p3).ofBuf v = v := rfl

set_option maxRecDepth 8192 in
set_option maxHeartbeats 4000000 in
/-- The result buffer after the operations is the last stage of the launch contents of the three arguments. -/
theorem result_eq (m : (ℓ : Loc nD τ sig) → Buf (Elt F) ℓ) (c : Dev nD) :
    after (ops (F := F)) (launchContents m c) (Proc.devRef .tc main_v15)
      = Cert.ReferenceIdeal.ReadP.val_main_v15 (F := F) (m ((c.tc : Thread nD τ).loc main_arg0)) (m ((c.tc : Thread nD τ).loc main_arg1)) (m ((c.tc : Thread nD τ).loc main_arg2)) := by
  after_results_simp
  simp only [ofBuf_toBuf, toBuf_main_v12, toBuf_main_v6, toBuf_main_call2_v4, toBuf_main_v4, ofBuf_main_v3, ofBuf_main_v8, ofBuf_main_call2_v5, ofBuf_main_v5, ofBuf_main_arg2, ofBuf_main_c_0, ofBuf_main_v0, ofBuf_main_cst]
  rfl

set_option maxRecDepth 8192 in
set_option maxHeartbeats 4000000 in
/-- Every weakly fair execution of the one-pass program terminates with its result at the stages' term of the arguments and
    the arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v15)
          = Cert.ReferenceIdeal.ReadP.val_main_v15 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v15).trans (result_eq m c),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.RunH

end
-- ==== Proof.KPieces.lean ====
/-
  What each control case of the cross-entropy body leaves in its three carried accumulators (running maximum,
  running sum, label logit) and, at the last vocabulary block, in the output block — each read off the stores the
  case's run found, as the body's own arithmetic terms over the point's input blocks and the accumulators'
  contents on entry. Every store and load of the body goes through the whole-buffer rectangle at the zero origin:
  one covering store leaves its payload, a later covering store hides an earlier one, and a load after a covering
  store reads that store's payload.
-/
import proofs.«407647_j69217692942469_2_alg».proof.Proof.Gen.KernelIdeal.Frame
import Idealize.ShloMosaic.Lib.Pipeline.Value

set_option maxRecDepth 16384

noncomputable section

namespace Cert.KernelIdeal.KV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The origin of every store rectangle of the body is the zero offset. -/
theorem hz : (![0, 0] : Fin 2 → Nat) = fun _ => 0 := funext fun a => by fin_cases a <;> rfl

/-- Between the first and the last vocabulary block, the running maximum is left at the larger of the carried
    maximum and the row maxima of this block's logits: the one covering store's payload, every load of the
    point reading a whole buffer at its contents on entry. -/
theorem sout_B_0 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x4096 .bf16) (x1 : Vec F S1280x4096 .bf16) (x2 : Vec F S512x1 .i32) (xs0 : Vec F S512x1 .f32) (xs1 : Vec F S512x1 .f32) (xs2 : Vec F S512x1 .f32) :
    sout0_B_0 c i arg2 harg2 arg3 harg3 arg4 harg4 arg5 harg5 arg6 harg6 arg7 harg7 arg8 harg8 hc0 hc1 x0 x1 x2 xs0 xs1 xs2 = k0_pay2 (k0_pay9 x0 x1 xs0) := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S512x4096) hz, View.ld_unit_zero (S := S1280x4096) hz, View.ld_unit_zero (S := S512x1) hz, View.readCov_unit_zero (S := S512x1) _ hz]

/-- Between the first and the last vocabulary block, the running sum is left at the carried sum rescaled by
    `exp (m - m')` plus the row sums of `exp (logits - m')`; both loads of the maximum precede its store, so
    they read the carried maximum. -/
theorem sout_B_1 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x4096 .bf16) (x1 : Vec F S1280x4096 .bf16) (x2 : Vec F S512x1 .i32) (xs0 : Vec F S512x1 .f32) (xs1 : Vec F S512x1 .f32) (xs2 : Vec F S512x1 .f32) :
    sout0_B_1 c i arg2 harg2 arg3 harg3 arg4 harg4 arg5 harg5 arg6 harg6 arg7 harg7 arg8 harg8 hc0 hc1 x0 x1 x2 xs0 xs1 xs2 = k0_pay1 (k0_pay10 x0 x1 xs0 xs0) (k0_pay11 x0 x1 xs0) xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S512x4096) hz, View.ld_unit_zero (S := S1280x4096) hz, View.ld_unit_zero (S := S512x1) hz, View.readCov_unit_zero (S := S512x1) _ hz]

/-- Between the first and the last vocabulary block, the label logit is left at the carried one plus the row
    sums of the logits selected where the block's column index equals the label. -/
theorem sout_B_2 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x4096 .bf16) (x1 : Vec F S1280x4096 .bf16) (x2 : Vec F S512x1 .i32) (xs0 : Vec F S512x1 .f32) (xs1 : Vec F S512x1 .f32) (xs2 : Vec F S512x1 .f32) :
    sout0_B_2 c i arg2 harg2 arg3 harg3 arg4 harg4 arg5 harg5 arg6 harg6 arg7 harg7 arg8 harg8 hc0 hc1 x0 x1 x2 xs0 xs1 xs2 = k0_pay8 i x0 x1 x2 xs2 := by
  unfold sout0_B_2
  rw [View.read_writes_eq_canon _ _ _ (scover0_B_2 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S512x4096) hz, View.ld_unit_zero (S := S1280x4096) hz, View.ld_unit_zero (S := S512x1) hz, View.readCov_unit_zero (S := S512x1) _ hz]

/-- At the last vocabulary block the running maximum is updated as at the middle blocks. -/
theorem sout_C_0 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x4096 .bf16) (x1 : Vec F S1280x4096 .bf16) (x2 : Vec F S512x1 .i32) (xs0 : Vec F S512x1 .f32) (xs1 : Vec F S512x1 .f32) (xs2 : Vec F S512x1 .f32) :
    sout0_C_0 c i arg2 harg2 arg3 harg3 arg4 harg4 arg5 harg5 arg6 harg6 arg7 harg7 arg8 harg8 hc0 hc1 x0 x1 x2 xs0 xs1 xs2 = k0_pay2 (k0_pay9 x0 x1 xs0) := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S512x4096) hz, View.ld_unit_zero (S := S1280x4096) hz, View.ld_unit_zero (S := S512x1) hz, View.readCov_unit_zero (S := S512x1) _ hz]

/-- At the last vocabulary block the running sum is updated as at the middle blocks. -/
theorem sout_C_1 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x4096 .bf16) (x1 : Vec F S1280x4096 .bf16) (x2 : Vec F S512x1 .i32) (xs0 : Vec F S512x1 .f32) (xs1 : Vec F S512x1 .f32) (xs2 : Vec F S512x1 .f32) :
    sout0_C_1 c i arg2 harg2 arg3 harg3 arg4 harg4 arg5 harg5 arg6 harg6 arg7 harg7 arg8 harg8 hc0 hc1 x0 x1 x2 xs0 xs1 xs2 = k0_pay1 (k0_pay10 x0 x1 xs0 xs0) (k0_pay11 x0 x1 xs0) xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S512x4096) hz, View.ld_unit_zero (S := S1280x4096) hz, View.ld_unit_zero (S := S512x1) hz, View.readCov_unit_zero (S := S512x1) _ hz]

/-- At the last vocabulary block the label logit is updated as at the middle blocks. -/
theorem sout_C_2 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x4096 .bf16) (x1 : Vec F S1280x4096 .bf16) (x2 : Vec F S512x1 .i32) (xs0 : Vec F S512x1 .f32) (xs1 : Vec F S512x1 .f32) (xs2 : Vec F S512x1 .f32) :
    sout0_C_2 c i arg2 harg2 arg3 harg3 arg4 harg4 arg5 harg5 arg6 harg6 arg7 harg7 arg8 harg8 hc0 hc1 x0 x1 x2 xs0 xs1 xs2 = k0_pay8 i x0 x1 x2 xs2 := by
  unfold sout0_C_2
  rw [View.read_writes_eq_canon _ _ _ (scover0_C_2 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S512x4096) hz, View.ld_unit_zero (S := S1280x4096) hz, View.ld_unit_zero (S := S512x1) hz, View.readCov_unit_zero (S := S512x1) _ hz]

/-- At the last vocabulary block the output block is stored as `0 - ((lbl - m) - log l)` of the three
    accumulators AFTER this point's update: each of its three loads follows the covering store into the same
    buffer, so it reads that store's payload. -/
theorem out_C_3 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x4096 .bf16) (x1 : Vec F S1280x4096 .bf16) (x2 : Vec F S512x1 .i32) (xs0 : Vec F S512x1 .f32) (xs1 : Vec F S512x1 .f32) (xs2 : Vec F S512x1 .f32) :
    out0_C_3 c i arg2 harg2 arg3 harg3 arg4 harg4 arg5 harg5 arg6 harg6 arg7 harg7 arg8 harg8 hc0 hc1 x0 x1 x2 xs0 xs1 xs2 = k0_pay3 (k0_pay8 i x0 x1 x2 xs2) (k0_pay2 (k0_pay9 x0 x1 xs0)) (k0_pay1 (k0_pay10 x0 x1 xs0 xs0) (k0_pay11 x0 x1 xs0) xs1) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S512x4096) hz, View.ld_unit_zero (S := S1280x4096) hz, View.ld_unit_zero (S := S512x1) hz, View.readCov_unit_zero (S := S512x1) _ hz]

/-- At the first vocabulary block the running maximum is first reset to `-inf` and then updated: the later
    store covers, and its load of the maximum reads the reset value back. -/
theorem sout_A_0 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x4096 .bf16) (x1 : Vec F S1280x4096 .bf16) (x2 : Vec F S512x1 .i32) :
    sout0_A_0 c i arg2 harg2 arg3 harg3 arg4 harg4 arg5 harg5 arg6 harg6 arg7 harg7 arg8 harg8 hc0 hc1 x0 x1 x2 = k0_pay2 (k0_pay9 x0 x1 (k0_pay4 (F := F))) := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S512x1) hz]
  simp only [View.readAt_eq_ld, harg2.read_unread, harg3.read_unread, harg4.read_unread, harg5.read_unread, harg6.read_unread, harg7.read_unread, harg8.read_unread, View.ld_unit_zero (S := S512x4096) hz, View.ld_unit_zero (S := S1280x4096) hz, View.ld_unit_zero (S := S512x1) hz, View.readCov_unit_zero (S := S512x1) _ hz]

/-- At the first vocabulary block the running sum is first reset to zero and then updated, against the reset
    maximum `-inf`. -/
theorem sout_A_1 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x4096 .bf16) (x1 : Vec F S1280x4096 .bf16) (x2 : Vec F S512x1 .i32) :
    sout0_A_1 c i arg2 harg2 arg3 harg3 arg4 harg4 arg5 harg5 arg6 harg6 arg7 harg7 arg8 harg8 hc0 hc1 x0 x1 x2 = k0_pay1 (k0_pay10 x0 x1 (k0_pay4 (F := F)) (k0_pay4 (F := F))) (k0_pay11 x0 x1 (k0_pay4 (F := F))) (k0_pay5 (F := F)) := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S512x1) hz]
  simp only [View.readAt_eq_ld, harg2.read_unread, harg3.read_unread, harg4.read_unread, harg5.read_unread, harg6.read_unread, harg7.read_unread, harg8.read_unread, View.ld_unit_zero (S := S512x4096) hz, View.ld_unit_zero (S := S1280x4096) hz, View.ld_unit_zero (S := S512x1) hz, View.readCov_unit_zero (S := S512x1) _ hz]

/-- At the first vocabulary block the label logit is first reset to zero and then updated. -/
theorem sout_A_2 (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x4096 .bf16) (x1 : Vec F S1280x4096 .bf16) (x2 : Vec F S512x1 .i32) :
    sout0_A_2 c i arg2 harg2 arg3 harg3 arg4 harg4 arg5 harg5 arg6 harg6 arg7 harg7 arg8 harg8 hc0 hc1 x0 x1 x2 = k0_pay8 i x0 x1 x2 (k0_pay6 (F := F)) := by
  unfold sout0_A_2
  rw [View.read_writes_eq_canon _ _ _ (scover0_A_2 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S512x1) hz]
  simp only [View.readAt_eq_ld, harg2.read_unread, harg3.read_unread, harg4.read_unread, harg5.read_unread, harg6.read_unread, harg7.read_unread, harg8.read_unread, View.ld_unit_zero (S := S512x4096) hz, View.ld_unit_zero (S := S1280x4096) hz, View.ld_unit_zero (S := S512x1) hz, View.readCov_unit_zero (S := S512x1) _ hz]

end Cert.KernelIdeal.KV

end
-- ==== Proof.KPayload.lean ====
/-
  The kernel body's payloads read at one row, at the ideal values.

  A grid point of the blockwise cross-entropy holds a [512, 4096] block of activations and a [1280, 4096] block of
  weights. Its logits are the products `∑ h, x r h * w c h`; per row `r` the body takes their maximum over the 1280
  columns, rescales the running sum of exponentials to the new maximum, and adds to the running label logit the one
  logit whose column number (1280 * v + c, for vocabulary block v) is the row's label. Each stored value, read at
  `(r, 0)`, is the matching component of `Cert.CE.step` applied to the row's running triple.
-/
import proofs.«407647_j69217692942469_2_alg».proof.Proof.Gen.KernelIdeal.Skeleton
import proofs.«407647_j69217692942469_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

namespace Cert.KernelIdeal.KV

open Idealize.ShloMosaic Idealize.ShloMosaic.ValueIdx Cert.KernelIdeal Cert.KernelIdeal.Gen Cert.CE

/-! ## The logits: the product of the two blocks at (r, c) -/

theorem lhs_dot_0 (i : S512x1280.Idx) (q : dot_S512x4096_S1280x4096_S512x1280_1_1_0_0_n_n.contr.Idx) :
    (dot_S512x4096_S1280x4096_S512x1280_1_1_0_0_n_n.lhsIdx i q 0).val = (i 0).val := by
  unfold DotDims.lhsIdx
  rw [dif_neg (show ¬(0 : Fin S512x4096.rank) ∈ dot_S512x4096_S1280x4096_S512x1280_1_1_0_0_n_n.lhsBatch by decide), dif_pos (show (0 : Fin S512x4096.rank) ∈ dot_S512x4096_S1280x4096_S512x1280_1_1_0_0_n_n.lhsNonContracting by decide)]
  rfl

theorem lhs_dot_1 (i : S512x1280.Idx) (q : dot_S512x4096_S1280x4096_S512x1280_1_1_0_0_n_n.contr.Idx) :
    (dot_S512x4096_S1280x4096_S512x1280_1_1_0_0_n_n.lhsIdx i q 1).val = (q ⟨0, by decide⟩).val :=
  dot_S512x4096_S1280x4096_S512x1280_1_1_0_0_n_n.lhsIdx_val_of_single rfl i q

theorem rhs_dot_0 (i : S512x1280.Idx) (q : dot_S512x4096_S1280x4096_S512x1280_1_1_0_0_n_n.contr.Idx) :
    (dot_S512x4096_S1280x4096_S512x1280_1_1_0_0_n_n.rhsIdx i q 0).val = (i 1).val := by
  unfold DotDims.rhsIdx
  rw [dif_neg (show ¬(0 : Fin S1280x4096.rank) ∈ dot_S512x4096_S1280x4096_S512x1280_1_1_0_0_n_n.rhsBatch by decide), dif_pos (show (0 : Fin S1280x4096.rank) ∈ dot_S512x4096_S1280x4096_S512x1280_1_1_0_0_n_n.rhsNonContracting by decide)]
  rfl

theorem rhs_dot_1 (i : S512x1280.Idx) (q : dot_S512x4096_S1280x4096_S512x1280_1_1_0_0_n_n.contr.Idx) :
    (dot_S512x4096_S1280x4096_S512x1280_1_1_0_0_n_n.rhsIdx i q 1).val = (q ⟨0, by decide⟩).val :=
  dot_S512x4096_S1280x4096_S512x1280_1_1_0_0_n_n.rhsIdx_val_of_single rfl i q

/-- The logit block at row `r`, column `c`: row `r` of the activations times row `c` of the weights. -/
theorem pay7_apply (x0 : FVec Ideal S512x4096 .bf16) (x1 : FVec Ideal S1280x4096 .bf16) (r : Fin 512) (c : Fin 1280) :
    k0_pay7 (F := Ideal) x0 x1 (ix2 r c) = ∑ h : Fin 4096, x0 (ix2 r h) * x1 (ix2 c h) := by
  unfold k0_pay7
  simp only [matmul]
  rw [shapeCast_self, shapeCast_self, Ideal.matmul_constant_zero_apply,
    ← Equiv.sum_comp (contrEquiv1 dot_S512x4096_S1280x4096_S512x1280_1_1_0_0_n_n 4096 rfl rfl).symm]
  refine Finset.sum_congr rfl fun k _ => ?_
  have hk := contrEquiv1_symm_val dot_S512x4096_S1280x4096_S512x1280_1_1_0_0_n_n 4096 rfl rfl k
  have el : dot_S512x4096_S1280x4096_S512x1280_1_1_0_0_n_n.lhsIdx (ix2 r c) ((contrEquiv1 dot_S512x4096_S1280x4096_S512x1280_1_1_0_0_n_n 4096 rfl rfl).symm k) = ix2 r k := funext fun a => Fin.ext (by
    match a with
    | ⟨0, _⟩ => exact lhs_dot_0 _ _
    | ⟨1, _⟩ => exact (lhs_dot_1 _ _).trans hk)
  have er : dot_S512x4096_S1280x4096_S512x1280_1_1_0_0_n_n.rhsIdx (ix2 r c) ((contrEquiv1 dot_S512x4096_S1280x4096_S512x1280_1_1_0_0_n_n 4096 rfl rfl).symm k) = ix2 c k := funext fun a => Fin.ext (by
    match a with
    | ⟨0, _⟩ => exact rhs_dot_0 _ _
    | ⟨1, _⟩ => exact (rhs_dot_1 _ _).trans hk)
  rw [el, er]

/-! ## Column forms of the layout operations -/

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two lane reductions of a [512, 1280] block, read at a row -/

theorem ofBits_neg_inf_f32 : FloatOps.ofBits (F := Ideal) .f32 0xFF800000#32 = ⊥ := by
  simp [Ideal.ofBits, Ideal.ieee]

/-- The maximum over the 1280 lanes, kept as a column: at row `r` the fold of `max` from `⊥` over the row. -/
theorem rowmax_apply (y : FVec Ideal S512x1280 .f32) (r : Fin 512) :
    shapeCast S512x1 (multiReduction (F := Ideal) .maximumf [1] S512 y 0xFF800000#32 Facts₀.reduces_S512x1280_S512 (.inl rfl) rfl)
        Facts₀.shapeCasts_S512_S512x1 (ix2 r 0)
      = Finset.univ.fold max ⊥ (fun c : Fin 1280 => y (ix2 r c)) := by
  refine (shapeCast_a_a1_apply _ _ r 0).trans ?_
  refine (Ideal.multiReduction_maximumf_single y _ Facts₀.reduces_S512x1280_S512 _ _ (ix1 r)).trans ?_
  rw [ofBits_neg_inf_f32]
  show (Finset.univ : Finset (Fin 1280)).fold max ⊥ (fun c => y (Facts₀.reduces_S512x1280_S512.lift (ix1 r) c)) = _
  refine congrArg (Finset.univ.fold max ⊥) (funext fun c => ?_)
  exact congrArg y (funext fun a => Fin.ext (by match a with | ⟨0, _⟩ => rfl | ⟨1, _⟩ => rfl))

/-- The sum over the 1280 lanes, kept as a column: at row `r` the sum over the row. -/
theorem rowsum_apply (y : FVec Ideal S512x1280 .f32) (r : Fin 512) :
    shapeCast S512x1 (multiReduction (F := Ideal) .add [1] S512 y 0x00000000#32 Facts₀.reduces_S512x1280_S512 (.inl rfl) rfl)
        Facts₀.shapeCasts_S512_S512x1 (ix2 r 0)
      = ∑ c : Fin 1280, y (ix2 r c) := by
  refine (shapeCast_a_a1_apply _ _ r 0).trans ?_
  refine (Ideal.multiReduction_add_single y _ Facts₀.reduces_S512x1280_S512 _ _ (ix1 r)).trans ?_
  show ∑ c : Fin 1280, y (Facts₀.reduces_S512x1280_S512.lift (ix1 r) c) = _
  refine Finset.sum_congr rfl fun c _ => ?_
  exact congrArg y (funext fun a => Fin.ext (by match a with | ⟨0, _⟩ => rfl | ⟨1, _⟩ => rfl))

/-! ## The running maximum -/

/-- The new maximum at row `r`: the old one against the row's largest logit. -/
theorem pay9_apply (x0 : FVec Ideal S512x4096 .bf16) (x1 : FVec Ideal S1280x4096 .bf16) (s0 : FVec Ideal S512x1 .f32) (r : Fin 512) :
    k0_pay9 (F := Ideal) x0 x1 s0 (ix2 r 0)
      = max (s0 (ix2 r 0)) (Finset.univ.fold max ⊥ (fun c : Fin 1280 => ∑ h : Fin 4096, x0 (ix2 r h) * x1 (ix2 c h))) := by
  unfold k0_pay9
  refine congrArg (max (s0 (ix2 r 0))) ((rowmax_apply _ r).trans ?_)
  exact congrArg (Finset.univ.fold max ⊥) (funext fun c => pay7_apply x0 x1 r c)

/-- The block's logits in the specification's words: column `c` of vocabulary block `v` is entry `col v c`. -/
theorem fold_logits (x0 : FVec Ideal S512x4096 .bf16) (x1 : FVec Ideal S1280x4096 .bf16) (r : Fin 512) (z : Fin 32000 → EReal)
    (v : ℕ) (hv : v < 25) (hz : ∀ c : Fin 1280, z (col v hv c) = ∑ h : Fin 4096, x0 (ix2 r h) * x1 (ix2 c h)) :
    (fun c : Fin 1280 => ∑ h : Fin 4096, x0 (ix2 r h) * x1 (ix2 c h)) = fun c : Fin 1280 => z (col v hv c) :=
  funext fun c => (hz c).symm

theorem pay_m (x0 : Vec Ideal S512x4096 .bf16) (x1 : Vec Ideal S1280x4096 .bf16) (s0 : Vec Ideal S512x1 .f32) (r : Fin 512)
    (z : Fin 32000 → EReal) (v : ℕ) (hv : v < 25) (yv : BitVec 32) (a b : EReal)
    (hz : ∀ c : Fin 1280, z (col v hv c) = ∑ h : Fin 4096, x0 (ix2 r h) * x1 (ix2 c h)) :
    k0_pay2 (F := Ideal) (k0_pay9 x0 x1 s0) (ix2 r 0) = (step z yv v hv (s0 (ix2 r 0), a, b)).1 := by
  unfold k0_pay2
  rw [shapeCast_self, pay9_apply, fold_logits x0 x1 r z v hv hz]
  rfl

/-! ## The running sum of exponentials -/

theorem pay10_apply (x0 : FVec Ideal S512x4096 .bf16) (x1 : FVec Ideal S1280x4096 .bf16) (s0 s0' : FVec Ideal S512x1 .f32) (r : Fin 512) :
    k0_pay10 (F := Ideal) x0 x1 s0 s0' (ix2 r 0) = Ideal.exp (s0' (ix2 r 0) - k0_pay9 (F := Ideal) x0 x1 s0 (ix2 r 0)) := rfl

theorem pay11_apply (x0 : FVec Ideal S512x4096 .bf16) (x1 : FVec Ideal S1280x4096 .bf16) (s0 : FVec Ideal S512x1 .f32) (r : Fin 512) (c : Fin 1280) :
    k0_pay11 (F := Ideal) x0 x1 s0 (ix2 r c)
      = Ideal.exp (k0_pay7 (F := Ideal) x0 x1 (ix2 r c) - k0_pay9 (F := Ideal) x0 x1 s0 (ix2 r 0)) := by
  unfold k0_pay11
  show Ideal.exp (k0_pay7 (F := Ideal) x0 x1 (ix2 r c)
      - broadcastTo S512x1280 (k0_pay9 (F := Ideal) x0 x1 s0) Facts₀.broadcasts_S512x1_S512x1280 (ix2 r c)) = _
  rw [broadcastTo_a1_ab_apply]

/-- The rescaled sum at row `r`: the factor times the old sum, plus the row's sum of the new exponentials. -/
theorem pay1_apply (e : FVec Ideal S512x1 .f32) (p : FVec Ideal S512x1280 .f32) (s1 : FVec Ideal S512x1 .f32) (r : Fin 512) :
    k0_pay1 (F := Ideal) e p s1 (ix2 r 0) = e (ix2 r 0) * s1 (ix2 r 0) + ∑ c : Fin 1280, p (ix2 r c) := by
  unfold k0_pay1
  rw [shapeCast_self]
  exact congrArg (e (ix2 r 0) * s1 (ix2 r 0) + ·) (rowsum_apply p r)

theorem pay_l (x0 : Vec Ideal S512x4096 .bf16) (x1 : Vec Ideal S1280x4096 .bf16) (s0 s1 : Vec Ideal S512x1 .f32) (r : Fin 512)
    (z : Fin 32000 → EReal) (v : ℕ) (hv : v < 25) (yv : BitVec 32) (b : EReal)
    (hz : ∀ c : Fin 1280, z (col v hv c) = ∑ h : Fin 4096, x0 (ix2 r h) * x1 (ix2 c h)) :
    k0_pay1 (F := Ideal) (k0_pay10 x0 x1 s0 s0) (k0_pay11 x0 x1 s0) s1 (ix2 r 0)
      = (step z yv v hv (s0 (ix2 r 0), s1 (ix2 r 0), b)).2.1 := by
  rw [pay1_apply, pay10_apply]
  simp only [pay11_apply, pay7_apply]
  rw [pay9_apply, fold_logits x0 x1 r z v hv hz]
  simp only [← hz]
  rfl

/-! ## The label logit -/

/-- The column number of lane `c` in vocabulary block `v`, as the body computes it in 32-bit words. -/
theorem col_word (v : ℕ) (hv : v < 25) (c : Fin 1280) :
    IntOp.addi (Scalar.muli (BitVec.ofNat 32 v) 1280#32) (BitVec.ofNat 32 c.val) = BitVec.ofNat 32 (1280 * v + c.val) := by
  have := c.isLt
  apply BitVec.eq_of_toNat_eq
  simp only [IntOp.addi, Scalar.muli, IntOp.muli, BitVec.toNat_add, BitVec.toNat_mul, BitVec.toNat_ofNat]
  omega

/-- A select on an equality test of words is the conditional on the equality, read either way round. -/
theorem select_cmpi_eq {α : Type} (A y : BitVec 32) (p q : α) :
    Scalar.select (IntOp.cmpi .eq A y) p q = if y = A then p else q := by
  unfold Scalar.select
  by_cases h : y = A
  · rw [if_pos h]
    exact if_pos (StableHlo.Predicate.cmpi_eq_iff.2 h.symm)
  · rw [if_neg h]
    exact if_neg fun hc => h (StableHlo.Predicate.cmpi_eq_iff.1 hc).symm

theorem pay_lbl (i : grid0.Coords) (x0 : Vec Ideal S512x4096 .bf16) (x1 : Vec Ideal S1280x4096 .bf16) (x2 : Vec Ideal S512x1 .i32)
    (s2 : Vec Ideal S512x1 .f32) (r : Fin 512) (z : Fin 32000 → EReal) (v : ℕ) (hv : v < 25) (hi : (i 1).val = v) (a b : EReal)
    (hz : ∀ c : Fin 1280, z (col v hv c) = ∑ h : Fin 4096, x0 (ix2 r h) * x1 (ix2 c h)) :
    k0_pay8 (F := Ideal) i x0 x1 x2 s2 (ix2 r 0) = (step z (x2 (ix2 r 0)) v hv (a, b, s2 (ix2 r 0))).2.2 := by
  unfold k0_pay8
  rw [shapeCast_self]
  refine congrArg (s2 (ix2 r 0) + ·) ((rowsum_apply _ r).trans ?_)
  refine Finset.sum_congr rfl fun c _ => ?_
  show Scalar.select (IntOp.cmpi .eq
        (IntOp.addi (Scalar.muli (BitVec.ofNat 32 (i 1).val) 1280#32) (iota .tc S512x1280 32 [1] Facts₀.iota_S512x1280_d1_w32 (ix2 r c)))
        (broadcastTo S512x1280 (shapeCast S512x1 x2 Facts₀.shapeCasts_S512x1_S512x1) Facts₀.broadcasts_S512x1_S512x1280 (ix2 r c)))
      (k0_pay7 (F := Ideal) x0 x1 (ix2 r c)) (FloatOps.ofBits (F := Ideal) .f32 0x00000000#32) = _
  rw [iota_single_apply, broadcastTo_a1_ab_apply, shapeCast_self, hi, pay7_apply, ← hz c, select_cmpi_eq]
  show (if x2 (ix2 r 0) = _ then z (col v hv c) else Ideal.ofBits .f32 0x00000000#32) = _
  rw [Ideal.ofBits_zero_f32, col_word v hv c]

/-! ## The stored loss and the reset values -/

theorem pay_out (a b c : Vec Ideal S512x1 .f32) (r : Fin 512) :
    k0_pay3 (F := Ideal) a b c (ix2 r 0) = 0 - ((a (ix2 r 0) - b (ix2 r 0)) - Ideal.log (c (ix2 r 0))) := by
  unfold k0_pay3
  show Ideal.ofBits .f32 0x00000000#32 - ((a (ix2 r 0) - b (ix2 r 0)) - Ideal.log (c (ix2 r 0))) = _
  rw [Ideal.ofBits_zero_f32]

theorem pay_init (r : Fin 512) :
    k0_pay4 (F := Ideal) (ix2 r 0) = ⊥ ∧ k0_pay5 (F := Ideal) (ix2 r 0) = 0 ∧ k0_pay6 (F := Ideal) (ix2 r 0) = 0 := by
  refine ⟨?_, ?_, ?_⟩
  · unfold k0_pay4
    rw [shapeCast_self]
    exact ofBits_neg_inf_f32
  · unfold k0_pay5
    rw [shapeCast_self]
    exact Ideal.ofBits_zero_f32
  · unfold k0_pay6
    rw [shapeCast_self]
    exact Ideal.ofBits_zero_f32

end Cert.KernelIdeal.KV

end
-- ==== Proof.KInvariant.lean ====
/-
  The blockwise sweep read off the grid: after grid point t = 25 a + v the three carried columns hold, at local
  row r, the running triple (maximum, rescaled sum of exponentials, label logit) of global row 512 a + r after
  v + 1 vocabulary blocks; at v = 24 the output block holds that row's loss.
-/
import proofs.«407647_j69217692942469_2_alg».proof.Proof.Gen.KernelIdeal.Frame
import proofs.«407647_j69217692942469_2_alg».proof.Proof.KPieces
import proofs.«407647_j69217692942469_2_alg».proof.Proof.KPayload
import proofs.«407647_j69217692942469_2_alg».proof.Proof.Spec
import Idealize.ShloMosaic.Lib.ValueIdx
import Idealize.ShloMosaic.Lib.ValueLayout
import Idealize.ShloMosaic.Lib.Pipeline.Value

set_option maxRecDepth 16384

noncomputable section

namespace Cert.KernelIdeal.KV

open Idealize.ShloMosaic Idealize.ShloMosaic.TcCoe Idealize.ShloMosaic.ValueIdx
open Idealize.SL Idealize.SL.Sem
open Cert.KernelIdeal Cert.KernelIdeal.Gen Cert.CE

variable (m : (ℓ : Loc nD τ sig) → Buf (Elt Ideal) ℓ)

/-- The activations on core c, at their literal type. -/
abbrev xArr (c : Dev nD) : (⟨2, ![4096, 4096]⟩ : Shape).Idx → EReal := m ((c.tc : Thread nD τ).loc main_arg0)
/-- The weights on core c. -/
abbrev wArr (c : Dev nD) : (⟨2, ![32000, 4096]⟩ : Shape).Idx → EReal := m ((c.tc : Thread nD τ).loc main_arg1)
/-- The labels on core c. -/
abbrev yArr (c : Dev nD) : (⟨1, ![4096]⟩ : Shape).Idx → BitVec 32 := m ((c.tc : Thread nD τ).loc main_arg2)

/-- The global row of local row r of the row block of point t. -/
def rowOf (t : Fin cfg0.N) (r : Fin 512) : Fin 4096 :=
  ⟨512 * (t.val / 25) + r.val, by have := t.isLt; have hN : cfg0.N = 200 := N_0; have := r.isLt; omega⟩

theorem idx0 : ∀ t : Fin cfg0.N, win0_0.index t 0 = t.val / 25 ∧ win0_0.index t 1 = 0 :=
  (by decide +kernel : ∀ t : Fin grid0.N, win0_0.index t 0 = t.val / 25 ∧ win0_0.index t 1 = 0)
theorem idx1 : ∀ t : Fin cfg0.N, win0_1.index t 0 = t.val % 25 ∧ win0_1.index t 1 = 0 :=
  (by decide +kernel : ∀ t : Fin grid0.N, win0_1.index t 0 = t.val % 25 ∧ win0_1.index t 1 = 0)
theorem idx2 : ∀ t : Fin cfg0.N, win0_2.index t 0 = t.val / 25 ∧ win0_2.index t 1 = 0 :=
  (by decide +kernel : ∀ t : Fin grid0.N, win0_2.index t 0 = t.val / 25 ∧ win0_2.index t 1 = 0)

theorem V_v0 (c : Dev nD) : (V m c main_v0 : S4096x4096.Idx → EReal) = xArr m c := by
  dsimp only [Gen.V, Gen.V0]
  simp only [Gen.hostOps0, List.flatten_cons, List.flatten_nil, List.append_nil, List.cons_append, List.nil_append]
  after_results
  rfl

theorem iblk0_apply (c : Dev nD) (t : Fin cfg0.N) (r : Fin 512) (h : Fin 4096) :
    iblk m c 0 t (ix2 r h) = xArr m c (ix2 (rowOf t r) h) := by
  unfold iblk
  rw [View.read_apply]
  show V m c main_v0 _ = _
  rw [V_v0]
  refine congrArg (xArr m c) (funext fun a => Fin.ext ?_)
  match a with
  | ⟨0, _⟩ =>
    show win0_0.index t 0 * 512 + 1 * r.val = 512 * (t.val / 25) + r.val
    rw [(idx0 t).1]; omega
  | ⟨1, _⟩ =>
    show win0_0.index t 1 * 4096 + 1 * h.val = h.val
    rw [(idx0 t).2]; omega

theorem V_v1 (c : Dev nD) : (V m c main_v1 : S32000x4096.Idx → EReal) = wArr m c := by
  dsimp only [Gen.V, Gen.V0]
  simp only [Gen.hostOps0, List.flatten_cons, List.flatten_nil, List.append_nil, List.cons_append, List.nil_append]
  after_results
  rfl

theorem V_v2 (c : Dev nD) :
    (V m c main_v2 : S4096x1.Idx → BitVec 32) = shapeCast S4096x1 (yArr m c) Facts₀.shapeCasts_S4096_S4096x1 := by
  dsimp only [Gen.V, Gen.V0]
  simp only [Gen.hostOps0, List.flatten_cons, List.flatten_nil, List.append_nil, List.cons_append, List.nil_append]
  after_results
  rfl

theorem iblk1_apply (c : Dev nD) (t : Fin cfg0.N) (cc : Fin 1280) (h : Fin 4096) :
    iblk m c 1 t (ix2 cc h) = wArr m c (ix2 (col (t.val % 25) (Nat.mod_lt _ (by decide)) cc) h) := by
  unfold iblk
  rw [View.read_apply]
  show V m c main_v1 _ = _
  rw [V_v1]
  refine congrArg (wArr m c) (funext fun a => Fin.ext ?_)
  match a with
  | ⟨0, _⟩ =>
    show win0_1.index t 0 * 1280 + 1 * cc.val = 1280 * (t.val % 25) + cc.val
    rw [(idx1 t).1]; omega
  | ⟨1, _⟩ =>
    show win0_1.index t 1 * 4096 + 1 * h.val = h.val
    rw [(idx1 t).2]; omega

theorem iblk2_apply (c : Dev nD) (t : Fin cfg0.N) (r : Fin 512) :
    iblk m c 2 t (ix2 r 0) = yArr m c (ix1 (rowOf t r)) := by
  unfold iblk
  rw [View.read_apply]
  show V m c main_v2 _ = _
  rw [V_v2]
  refine shapeCast_apply (yArr m c) Facts₀.shapeCasts_S4096_S4096x1 _ (ix1 (rowOf t r)) ?_
  rw [Shape.rowMajor_val_two, Shape.rowMajor_val_one]
  show 512 * (t.val / 25) + r.val = (win0_2.index t 0 * 512 + 1 * r.val) * 1 + (win0_2.index t 1 * 1 + 1 * 0)
  rw [(idx2 t).1, (idx2 t).2]; omega

/-! ## The running triple of a row -/

theorem coord1 : ∀ t : Fin cfg0.N, ((grid0.coords t) 1).val = t.val % 25 :=
  (by decide +kernel : ∀ t : Fin grid0.N, ((grid0.coords t) 1).val = t.val % 25)

/-- One vocabulary block's three stored columns, read at row r, are one step of the row's running triple. -/
theorem upd_row (i : grid0.Coords) (x0 : Vec Ideal S512x4096 .bf16) (x1 : Vec Ideal S1280x4096 .bf16)
    (x2 : Vec Ideal S512x1 .i32) (s0 s1 s2 : Vec Ideal S512x1 .f32) (r : Fin 512) (z : Fin 32000 → EReal)
    (v : ℕ) (hv : v < 25) (hi : (i 1).val = v)
    (hz : ∀ cc : Fin 1280, z (col v hv cc) = ∑ h : Fin 4096, x0 (ix2 r h) * x1 (ix2 cc h)) :
    (k0_pay2 (F := Ideal) (k0_pay9 x0 x1 s0) (ix2 r 0),
      k0_pay1 (F := Ideal) (k0_pay10 x0 x1 s0 s0) (k0_pay11 x0 x1 s0) s1 (ix2 r 0),
      k0_pay8 (F := Ideal) i x0 x1 x2 s2 (ix2 r 0))
      = step z (x2 (ix2 r 0)) v hv (s0 (ix2 r 0), s1 (ix2 r 0), s2 (ix2 r 0)) :=
  congrArg₂ Prod.mk (pay_m x0 x1 s0 r z v hv (x2 (ix2 r 0)) (s1 (ix2 r 0)) (s2 (ix2 r 0)) hz)
    (congrArg₂ Prod.mk (pay_l x0 x1 s0 s1 r z v hv (x2 (ix2 r 0)) (s2 (ix2 r 0)) hz)
      (pay_lbl i x0 x1 x2 s2 r z v hv hi (s0 (ix2 r 0)) (s1 (ix2 r 0)) hz))

/-- The three input blocks of point t, at their literal types. -/
abbrev xblk (c : Dev nD) (t : Fin cfg0.N) : Vec Ideal S512x4096 .bf16 := iblk m c 0 t
abbrev wblk (c : Dev nD) (t : Fin cfg0.N) : Vec Ideal S1280x4096 .bf16 := iblk m c 1 t
abbrev yblk (c : Dev nD) (t : Fin cfg0.N) : Vec Ideal S512x1 .i32 := iblk m c 2 t

/-- The logits of the row of point t, at the columns of its vocabulary block, are the block products. -/
theorem logit_blk (c : Dev nD) (t : Fin cfg0.N) (r : Fin 512) (cc : Fin 1280) :
    logit (xArr m c) (wArr m c) (rowOf t r) (col (t.val % 25) (Nat.mod_lt _ (by decide)) cc)
      = ∑ h : Fin 4096, xblk m c t (ix2 r h) * wblk m c t (ix2 cc h) := by
  unfold logit
  exact Finset.sum_congr rfl fun h _ => (congrArg₂ (fun a b : EReal => a * b) (iblk0_apply m c t r h) (iblk1_apply m c t cc h)).symm

/-- What the three carried columns hold at row r after position n. -/
def carried (c : Dev nD) (n : ℕ) (hn : n < cfg0.N) (r : Fin 512) : EReal × EReal × EReal :=
  ((outsAt0 m c n hn).2.1 (ix2 r 0), (outsAt0 m c n hn).2.2.1 (ix2 r 0), (outsAt0 m c n hn).2.2.2 (ix2 r 0))

theorem carried_A (c : Dev nD) (t : Fin cfg0.N) (h0 : t.val % 25 = 0) (r : Fin 512) :
    carried m c t.val t.isLt r
      = step (logit (xArr m c) (wArr m c) (rowOf t r)) (yArr m c (ix1 (rowOf t r))) (t.val % 25) (Nat.mod_lt _ (by decide))
          (⊥, 0, 0) := by
  have h1 : ¬t.val % 25 = 24 := by omega
  unfold carried
  rw [outsAt0_A m c t h0 h1]
  dsimp only
  refine (congrArg₂ Prod.mk (congrFun (sout_A_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)) (ix2 r 0))
    (congrArg₂ Prod.mk (congrFun (sout_A_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)) (ix2 r 0))
      (congrFun (sout_A_2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)) (ix2 r 0)))).trans ?_
  refine (upd_row (grid0.coords t) (xblk m c t) (wblk m c t) (yblk m c t) (k0_pay4 (F := Ideal)) (k0_pay5 (F := Ideal)) (k0_pay6 (F := Ideal)) r
    (logit (xArr m c) (wArr m c) (rowOf t r)) (t.val % 25) (Nat.mod_lt _ (by decide)) (coord1 t) (logit_blk m c t r)).trans ?_
  rw [(pay_init r).1, (pay_init r).2.1, (pay_init r).2.2]
  exact congrArg (fun y => step (logit (xArr m c) (wArr m c) (rowOf t r)) y (t.val % 25) (Nat.mod_lt _ (by decide)) (⊥, 0, 0)) (iblk2_apply m c t r)

theorem carried_B (c : Dev nD) (t : Fin cfg0.N) (h0 : ¬t.val % 25 = 0) (h1 : ¬t.val % 25 = 24) (r : Fin 512) :
    carried m c t.val t.isLt r
      = step (logit (xArr m c) (wArr m c) (rowOf t r)) (yArr m c (ix1 (rowOf t r))) (t.val % 25) (Nat.mod_lt _ (by decide))
          (carried m c (t.val - 1) (Nat.lt_of_le_of_lt (Nat.sub_le _ _) t.isLt) r) := by
  unfold carried
  rw [outsAt0_B m c t h0 h1]
  dsimp only
  refine (congrArg₂ Prod.mk (congrFun (sout_B_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 r 0))
    (congrArg₂ Prod.mk (congrFun (sout_B_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 r 0))
      (congrFun (sout_B_2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 r 0)))).trans ?_
  refine (upd_row (grid0.coords t) (xblk m c t) (wblk m c t) (yblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 r
    (logit (xArr m c) (wArr m c) (rowOf t r)) (t.val % 25) (Nat.mod_lt _ (by decide)) (coord1 t) (logit_blk m c t r)).trans ?_
  exact congrArg (fun y => step (logit (xArr m c) (wArr m c) (rowOf t r)) y (t.val % 25) (Nat.mod_lt _ (by decide))
    ((outsAt0 m c (t.val - 1) (Nat.lt_of_le_of_lt (Nat.sub_le _ _) t.isLt)).2.1 (ix2 r 0), (outsAt0 m c (t.val - 1) (Nat.lt_of_le_of_lt (Nat.sub_le _ _) t.isLt)).2.2.1 (ix2 r 0), (outsAt0 m c (t.val - 1) (Nat.lt_of_le_of_lt (Nat.sub_le _ _) t.isLt)).2.2.2 (ix2 r 0))) (iblk2_apply m c t r)

theorem carried_C (c : Dev nD) (t : Fin cfg0.N) (h0 : ¬t.val % 25 = 0) (h1 : t.val % 25 = 24) (r : Fin 512) :
    carried m c t.val t.isLt r
      = step (logit (xArr m c) (wArr m c) (rowOf t r)) (yArr m c (ix1 (rowOf t r))) (t.val % 25) (Nat.mod_lt _ (by decide))
          (carried m c (t.val - 1) (Nat.lt_of_le_of_lt (Nat.sub_le _ _) t.isLt) r) := by
  unfold carried
  rw [outsAt0_C m c t h0 h1]
  dsimp only
  refine (congrArg₂ Prod.mk (congrFun (sout_C_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 r 0))
    (congrArg₂ Prod.mk (congrFun (sout_C_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 r 0))
      (congrFun (sout_C_2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 r 0)))).trans ?_
  refine (upd_row (grid0.coords t) (xblk m c t) (wblk m c t) (yblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 r
    (logit (xArr m c) (wArr m c) (rowOf t r)) (t.val % 25) (Nat.mod_lt _ (by decide)) (coord1 t) (logit_blk m c t r)).trans ?_
  exact congrArg (fun y => step (logit (xArr m c) (wArr m c) (rowOf t r)) y (t.val % 25) (Nat.mod_lt _ (by decide))
    ((outsAt0 m c (t.val - 1) (Nat.lt_of_le_of_lt (Nat.sub_le _ _) t.isLt)).2.1 (ix2 r 0), (outsAt0 m c (t.val - 1) (Nat.lt_of_le_of_lt (Nat.sub_le _ _) t.isLt)).2.2.1 (ix2 r 0), (outsAt0 m c (t.val - 1) (Nat.lt_of_le_of_lt (Nat.sub_le _ _) t.isLt)).2.2.2 (ix2 r 0))) (iblk2_apply m c t r)

/-- At the last vocabulary block the output block, at row r, is the loss formula of the row's carried triple. -/
theorem out_C_eq (c : Dev nD) (t : Fin cfg0.N) (h0 : ¬t.val % 25 = 0) (h1 : t.val % 25 = 24) (r : Fin 512) :
    (outsAt0 m c t.val t.isLt).1 (ix2 r 0)
      = 0 - (((carried m c t.val t.isLt r).2.2 - (carried m c t.val t.isLt r).1) - Ideal.log (carried m c t.val t.isLt r).2.1) := by
  unfold carried
  rw [outsAt0_C m c t h0 h1]
  dsimp only
  rw [sout_C_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout_C_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout_C_2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out_C_3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
  exact pay_out _ _ _ r

/-! ## The sweep over the grid -/

theorem stateN_first (z : Fin 32000 → EReal) (yv : BitVec 32) (v : ℕ) (hv : v < 25) (h : v + 1 ≤ 25) (h0 : v = 0) :
    step z yv v hv (⊥, 0, 0) = stateN z yv (v + 1) h := by
  subst h0; rfl

theorem stateN_next (z : Fin 32000 → EReal) (yv : BitVec 32) (v : ℕ) (hv : v < 25) (h : v + 1 ≤ 25) (k : ℕ) (hk : k ≤ 25)
    (e : k = v) : step z yv v hv (stateN z yv k hk) = stateN z yv (v + 1) h := by
  subst e; rfl

theorem rowOf_pred (t t' : Fin cfg0.N) (e : t'.val = t.val - 1) (h0 : ¬t.val % 25 = 0) (r : Fin 512) :
    rowOf t' r = rowOf t r := by
  apply Fin.ext
  show 512 * (t'.val / 25) + r.val = 512 * (t.val / 25) + r.val
  rw [e]; omega

theorem carried_eq (c : Dev nD) : ∀ (n : ℕ) (t : Fin cfg0.N), t.val = n → ∀ r : Fin 512,
    carried m c t.val t.isLt r
      = stateN (logit (xArr m c) (wArr m c) (rowOf t r)) (yArr m c (ix1 (rowOf t r))) (t.val % 25 + 1)
          (by have := Nat.mod_lt t.val (show 0 < 25 by decide); omega) := by
  intro n
  induction n using Nat.strong_induction_on with
  | _ n ih =>
    intro t ht r
    have hlt : t.val % 25 < 25 := Nat.mod_lt _ (by decide)
    by_cases h0 : t.val % 25 = 0
    · exact (carried_A m c t h0 r).trans (stateN_first _ _ _ _ _ h0)
    · have hprev : t.val - 1 < cfg0.N := Nat.lt_of_le_of_lt (Nat.sub_le _ _) t.isLt
      have hpos : 0 < t.val := by omega
      have ihp := ih (t.val - 1) (by omega) ⟨t.val - 1, hprev⟩ rfl r
      rw [rowOf_pred t ⟨t.val - 1, hprev⟩ rfl h0 r] at ihp
      have step_eq : carried m c t.val t.isLt r
          = step (logit (xArr m c) (wArr m c) (rowOf t r)) (yArr m c (ix1 (rowOf t r))) (t.val % 25) hlt
              (carried m c (t.val - 1) hprev r) := by
        by_cases h1 : t.val % 25 = 24
        · exact carried_C m c t h0 h1 r
        · exact carried_B m c t h0 h1 r
      rw [step_eq]
      refine (congrArg (step _ _ _ _) ihp).trans ?_
      exact stateN_next _ _ _ _ _ _ _ (by show (t.val - 1) % 25 + 1 = t.val % 25; omega)

theorem scratch_inv (c : Dev nD) (t : Fin cfg0.N) (r : Fin 512) :
    ((outsAt0 m c t.val t.isLt).2.1 (ix2 r 0), (outsAt0 m c t.val t.isLt).2.2.1 (ix2 r 0),
        (outsAt0 m c t.val t.isLt).2.2.2 (ix2 r 0))
      = stateN (logit (xArr m c) (wArr m c) (rowOf t r)) (yArr m c (ix1 (rowOf t r))) (t.val % 25 + 1)
          (by have := Nat.mod_lt t.val (show 0 < 25 by decide); omega) :=
  carried_eq m c t.val t rfl r

theorem stateN_congr (z : Fin 32000 → EReal) (yv : BitVec 32) (k k' : ℕ) (hk : k ≤ 25) (hk' : k' ≤ 25) (e : k = k') :
    stateN z yv k hk = stateN z yv k' hk' := by
  subst e; rfl

theorem out_last (c : Dev nD) (t : Fin cfg0.N) (ht : t.val % 25 = 24) (r : Fin 512) :
    (outsAt0 m c t.val t.isLt).1 (ix2 r 0)
      = nllK (logit (xArr m c) (wArr m c) (rowOf t r)) (yArr m c (ix1 (rowOf t r))) := by
  have h0 : ¬t.val % 25 = 0 := by omega
  rw [out_C_eq m c t h0 ht r, carried_eq m c t.val t rfl r,
    stateN_congr _ _ (t.val % 25 + 1) 25 _ le_rfl (by omega)]
  rfl

end Cert.KernelIdeal.KV

end
-- ==== Proof.KFinal.lean ====
/-
  The output array after the run: row p of the [4096,1] loss array is written back exactly once, by the grid point
  that finishes the vocabulary sweep of p's row block, and holds that row's blockwise loss.
-/
import proofs.«407647_j69217692942469_2_alg».proof.Proof.KInvariant
import Idealize.ShloMosaic.Lib.Pipeline.Value
import Idealize.ShloMosaic.Lib.ValueIdx

set_option maxRecDepth 16384

noncomputable section

namespace Cert.KernelIdeal.KV

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.CE

variable (m : (ℓ : Loc nD τ sig) → Buf (Elt Ideal) ℓ)

/-- The loss array: row p holds the blockwise loss of row p's logits at row p's label. -/
abbrev lossArr (c : Dev nD) : S4096x1.Idx → EReal :=
  fun i => nllK (logit (xArr m c) (wArr m c) (i 0)) (yArr m c (ix1 (i 0)))

/-- Two columns of 512 rows agree when they agree row by row (the second coordinate of a [512,1] index is 0). -/
theorem col_ext (X Y : S512x1.Idx → EReal) (h : ∀ r : Fin 512, X (ix2 r 0) = Y (ix2 r 0)) : X = Y := by
  funext j
  have e : j = ix2 (n0 := 512) (n1 := 1) (j 0) 0 := by
    funext a
    match a with
    | ⟨0, _⟩ => rfl
    | ⟨1, _⟩ => exact Fin.ext (by have := idx2_lt1 (n0 := 512) (n1 := 1) j; show (j 1).val = 0; omega)
  rw [e]; exact h (j 0)

/-- The output window's block index at grid point t = 25 a + v is (a, 0): decided over the grid. -/
theorem idx3 : ∀ t : Fin cfg0.N, win0_3.index t (0 : Fin 2) = t.val / 25 ∧ win0_3.index t (1 : Fin 2) = 0 :=
  (by decide +kernel : ∀ t : Fin grid0.N, _)

/-- What a point that finishes a row block's vocabulary sweep writes back is its block of the loss array: local
    row r of the block is global row 512 a + r. -/
theorem flushed3_eq (c : Dev nD) (t : Fin cfg0.N) (hf : (cfg0.win 3).flush t = true) :
    (dats m 0 c).flushed 3 t = ((cfg0.win 3).blk t).view.read (Elt Ideal) (lossArr m c) := by
  have ht : t.val % 25 = 24 := (flush0_3 t).mp hf
  show (cfg0.win 3).cut (grid0.coords t) ((dats m 0 c).after 3 t) = _
  rw [after0_3]
  refine col_ext _ _ fun r => ?_
  show (outsAt0 m c t.val t.isLt).1 (ix2 r 0) = lossArr m c (((cfg0.win 3).blk t).view.emb (ix2 r 0))
  rw [out_last m c t ht r]
  have he : (((cfg0.win 3).blk t).view.emb (ix2 r 0)) 0 = rowOf t r :=
    Fin.ext (by
      show win0_3.index t (0 : Fin 2) * 512 + 1 * r.val = 512 * (t.val / 25) + r.val
      rw [(idx3 t).1]; omega)
  show _ = nllK (logit (xArr m c) (wArr m c) ((((cfg0.win 3).blk t).view.emb (ix2 r 0)) 0))
      (yArr m c (ix1 ((((cfg0.win 3).blk t).view.emb (ix2 r 0)) 0)))
  rw [he]

/-- An index of the loss array is in point t's block iff each coordinate is in the block's range on its axis. -/
theorem mem_blk3 (t : Fin cfg0.N) (i : S4096x1.Idx) :
    i ∈ ((cfg0.win 3).blk t).view.set ↔ ∀ a : Fin 2, win0_3.index t a * S512x1.size a ≤ (i a).val
      ∧ (i a).val < win0_3.index t a * S512x1.size a + S512x1.size a := by
  show i ∈ ((View.whole main_v3).slice (win0_3.rect t)).set ↔ _
  rw [View.set_slice_whole, Rect.mem_set_unit]
  exact Iff.rfl

/-- Row p of the loss array is written back by the point that finishes the sweep of p's row block,
    t = 25 (p / 512) + 24. -/
theorem cover3 (i : S4096x1.Idx) :
    ∃ t : Fin cfg0.N, (cfg0.win 3).flush t = true ∧ i ∈ ((cfg0.win 3).blk t).view.set := by
  have hN : cfg0.N = 200 := N_0
  have hi0 : (i 0).val < 4096 := idx2_lt0 (n0 := 4096) (n1 := 1) i
  have hi1 : (i 1).val < 1 := idx2_lt1 (n0 := 4096) (n1 := 1) i
  have hlt : 25 * ((i 0).val / 512) + 24 < cfg0.N := by omega
  obtain ⟨e0, e1⟩ := idx3 ⟨25 * ((i 0).val / 512) + 24, hlt⟩
  refine ⟨⟨25 * ((i 0).val / 512) + 24, hlt⟩, (flush0_3 _).mpr (by show (25 * ((i 0).val / 512) + 24) % 25 = 24; omega), ?_⟩
  rw [mem_blk3]
  intro a
  match a with
  | ⟨0, _⟩ =>
    show win0_3.index ⟨25 * ((i 0).val / 512) + 24, hlt⟩ (0 : Fin 2) * 512 ≤ (i 0).val
      ∧ (i 0).val < win0_3.index ⟨25 * ((i 0).val / 512) + 24, hlt⟩ (0 : Fin 2) * 512 + 512
    rw [e0]
    show (25 * ((i 0).val / 512) + 24) / 25 * 512 ≤ (i 0).val ∧ (i 0).val < (25 * ((i 0).val / 512) + 24) / 25 * 512 + 512
    omega
  | ⟨1, _⟩ =>
    show win0_3.index ⟨25 * ((i 0).val / 512) + 24, hlt⟩ (1 : Fin 2) * 1 ≤ (i 1).val
      ∧ (i 1).val < win0_3.index ⟨25 * ((i 0).val / 512) + 24, hlt⟩ (1 : Fin 2) * 1 + 1
    rw [e1]; omega

/-- THE OUTPUT ARRAY after the run: every row holds its blockwise loss. -/
theorem final3 (c : Dev nD) :
    (dats m 0 c).arrAt 3 cfg0.N = fun i : S4096x1.Idx => nllK (logit (xArr m c) (wArr m c) (i 0)) (yArr m c (ix1 (i 0))) :=
  (dats m 0 c).arrAt_eq_of_cover 3 (lossArr m c) (flushed3_eq m c) cover3

end Cert.KernelIdeal.KV

end
-- ==== Proof.KRun.lean ====
/-
  The kernel program's run with its result named: after the blockwise sweep has left each row's loss in the
  [4096, 1] output array, the host lines that follow flatten it, replace the rows whose label is the ignore index by
  zero, sum, and divide by the number of valid rows. The scalar that results is the masked mean of the per-row
  blockwise losses; the three argument arrays end as they were launched.
-/
import proofs.«407647_j69217692942469_2_alg».proof.Proof.KFinal
import proofs.«407647_j69217692942469_2_alg».proof.Proof.Tail
import Idealize.ShloMosaic.Lib.Pipeline.Value
import Idealize.ShloMosaic.Lib.ValueIdx

set_option maxRecDepth 16384

noncomputable section

namespace Cert.KernelIdeal.KV

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.CE

/-! ## The host lines after the region -/

/-- The masked mean as the host lines compute it from the label array `y` and the [4096, 1] loss array `X`: when the
    flattened `X` is `nll`, it is `lossTail y nll`. -/
theorem tail_of (y : IVec S4096 32) (X : S4096x1.Idx → EReal) (nll : FVec Ideal S4096 .f32)
    (hX : shapeCast S4096 X Gen.shapeCasts_S4096x1_S4096 = nll) :
    Host.divf (F := Ideal)
        (Host.reduceAdd (F := Ideal)
          (select (cmpi .ne y (broadcastInDim S4096 ![] Gen.bcast_S_S4096 (constantI S_ 32 4294967196#32)))
            (fun i => shapeCast S4096 X Gen.shapeCasts_S4096x1_S4096 i)
            (broadcastInDim S4096 ![] Gen.bcast_S_S4096 (id (constant (F := Ideal) S_ .f32 0x00000000#32))))
          (constant (F := Ideal) S_ .f32 0x00000000#32) Gen.reducesTo_S4096_S_d0 Gen.h_S_)
        (sitofp .f32
          (maxsi
            (Host.reduce IntOp.addi
              (extui 32 (cmpi .ne y (broadcastInDim S4096 ![] Gen.bcast_S_S4096 (constantI S_ 32 4294967196#32))) Gen.natLt_1_32)
              (constantI S_ 32 0#32) Gen.reducesTo_S4096_S_d0 Gen.h_S_)
            (constantI S_ 32 1#32)))
      = lossTail Gen.bcast_S_S4096 Gen.reducesTo_S4096_S_d0 Gen.h_S_ Gen.natLt_1_32 y nll := by
  subst hX
  rfl

/-- A [4096, 1] column flattened to [4096] reads, at `p`, the column's entry of row `p`. -/
theorem flatten_col_apply {α : Type} (X : S4096x1.Idx → α) (h : S4096x1.ShapeCasts S4096) (p : Fin 4096) :
    shapeCast S4096 X h (ix1 p) = X (ix2 p 0) :=
  shapeCast_apply X h (ix1 p) (ix2 p 0) (by
    rw [Shape.rowMajor_val_two, Shape.rowMajor_val_one]
    show p.val * 1 + 0 = p.val
    omega)

/-- What the lines after the region leave in the result buffer: the masked mean of the per-row blockwise losses. -/
theorem tail_v13 (m : (ℓ : Loc nD τ sig) → Buf (Elt Ideal) ℓ) (c : Dev nD) :
    Pipeline.afterTail₀ cfgs (dats m) 0 (V0 m) [hostOps1, hostOps1_1, hostOps1_2] c main_v13
      = lossTail Gen.bcast_S_S4096 Gen.reducesTo_S4096_S_d0 Gen.h_S_ Gen.natLt_1_32 (yArr m c)
          (fun i => nllK (logit (xArr m c) (wArr m c) (i 0)) (yArr m c i)) := by
  unfold Pipeline.afterTail₀
  simp only [List.flatten_cons, List.flatten_nil, List.append_nil, List.cons_append, List.nil_append, hostOps1, hostOps1_1, hostOps1_2]
  show StableHlo.after _ _ (Proc.devRef .tc main_v13) = _
  after_results
  simp only [StableHlo.TRef.ofBuf, StableHlo.TRef.toBuf, cast_eq]
  have h3 : Pipeline.withArrays (cfgs 0).spec c (V0 m c) (fun w => (dats m 0 c).arrAt w (cfgs 0).N) (Proc.devRef .tc main_v3)
      = fun j : S4096x1.Idx => nllK (logit (xArr m c) (wArr m c) (j 0)) (yArr m c (ix1 (j 0))) :=
    (Pipeline.withArrays_arr spec0 launch0.win.arr_inj c _ _ 3).trans (final3 m c)
  have h2 : Pipeline.withArrays (cfgs 0).spec c (V0 m c) (fun w => (dats m 0 c).arrAt w (cfgs 0).N) (Proc.devRef .tc main_arg2)
      = yArr m c :=
    (Pipeline.withArrays_of_ne _ c (V0 m c) _ main_arg2 (by exact (by decide : ∀ w, Pipeline.arrRef spec0 w ≠ main_arg2))).trans
      (V_main_arg2 m c)
  rw [h2, h3]
  refine tail_of (yArr m c) (fun j : S4096x1.Idx => nllK (logit (xArr m c) (wArr m c) (j 0)) (yArr m c (ix1 (j 0)))) _ ?_
  funext i
  obtain ⟨p, rfl⟩ : ∃ p : Fin 4096, i = ix1 p := ⟨i 0, eq_ix1 i⟩
  exact flatten_col_apply _ _ p

/-! ## The run -/

/-- At the compiled mesh, from any memory with zero counters, every weakly fair execution of the kernel program
    terminates with the masked mean of the blockwise row losses in its result buffer and its three arguments as
    launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v13)
          = lossTail Gen.bcast_S_S4096 Gen.reducesTo_S4096_S_d0 Gen.h_S_ Gen.natLt_1_32 (yArr m c)
              (fun i => nllK (logit (xArr m c) (wArr m c) (i 0)) (yArr m c i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v13 (Pipeline.mem_restRefs_of main_v13 (by decide) (by decide))).trans (tail_v13 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.KV

end
-- ==== Proof.lean ====
/-
  Cross-entropy of a linear head against integer labels with an ignore index, averaged over the valid tokens: a blockwise
  program that sweeps the vocabulary in 25 blocks with a running maximum, a rescaled running sum of exponentials and a
  masked label logit per row, against the one-pass program that takes a stable log-softmax of the whole logit matrix and
  gathers it at the label.

  On finite activations and weights every logit is a real number, so for a row whose label lies in the vocabulary both
  programs' row losses are `log (∑ exp z) - z y`: the blockwise triple after the sweep is (μ, ∑ exp (z − μ), z y) for a real μ,
  the one-pass program shifts by the row maximum M, and `(z y − c) − log ∑ exp (z − c)` does not depend on the real shift c.
  A row labelled −100 is replaced by zero in both programs before the sum, whatever its loss, and the divisor (the number
  of valid rows, at least one) is the same function of the labels. Labels are assumed to be −100 or inside the vocabulary;
  nothing is claimed of other labels, where the one-pass program wraps negative indices and the blockwise one matches no
  column.
-/
import proofs.«407647_j69217692942469_2_alg».proof.Defs
import proofs.«407647_j69217692942469_2_alg».proof.Proof.Gen.Kernel
import proofs.«407647_j69217692942469_2_alg».proof.Proof.Gen.Kernel.Frame
import proofs.«407647_j69217692942469_2_alg».proof.Proof.Gen.KernelIdeal
import proofs.«407647_j69217692942469_2_alg».proof.Proof.Gen.KernelIdeal.Frame
import proofs.«407647_j69217692942469_2_alg».proof.Proof.Gen.ReferenceIdeal
import proofs.«407647_j69217692942469_2_alg».proof.Proof.Gen.Pre_finite_inputs
import proofs.«407647_j69217692942469_2_alg».proof.Proof.Spec
import proofs.«407647_j69217692942469_2_alg».proof.Proof.Tail
import proofs.«407647_j69217692942469_2_alg».proof.Proof.LogSumExp
import proofs.«407647_j69217692942469_2_alg».proof.Proof.PreDecode
import proofs.«407647_j69217692942469_2_alg».proof.Proof.RefRow
import proofs.«407647_j69217692942469_2_alg».proof.Proof.RefRunHand
import proofs.«407647_j69217692942469_2_alg».proof.Proof.KRun
import Idealize.ShloMosaic.Adequacy
import Idealize.ShloMosaic.Init

noncomputable section

namespace Cert.Proof

open Idealize.ShloMosaic Idealize.ShloMosaic.ValueIdx Idealize.SL.Sem

/-- The one-pass program's result is the masked mean of its per-row losses (its stage `main_v8`): the stages after it are
    the shared tail, operation for operation. -/
theorem ref_tail (x : (⟨2, ![4096, 4096]⟩ : Shape).Idx → EReal) (w : (⟨2, ![32000, 4096]⟩ : Shape).Idx → EReal)
    (y : (⟨1, ![4096]⟩ : Shape).Idx → BitVec 32) :
    Cert.ReferenceIdeal.ReadP.val_main_v15 (F := Ideal) x w y
      = Cert.CE.lossTail Cert.ReferenceIdeal.Gen.bcast_S_S4096 Cert.ReferenceIdeal.Gen.reducesTo_S4096_S_d0
          Cert.ReferenceIdeal.Gen.h_S_ Cert.ReferenceIdeal.Gen.natLt_1_32 y
          (Cert.ReferenceIdeal.ReadP.val_main_v8 (F := Ideal) x w y) := by
  generalize hn : Cert.ReferenceIdeal.ReadP.val_main_v8 (F := Ideal) x w y = nll
  unfold Cert.ReferenceIdeal.ReadP.val_main_v15 Cert.ReferenceIdeal.ReadP.val_main_v13 Cert.ReferenceIdeal.ReadP.val_main_v14
    Cert.ReferenceIdeal.ReadP.val_main_v12 Cert.ReferenceIdeal.ReadP.val_main_v11 Cert.ReferenceIdeal.ReadP.val_main_v10
    Cert.ReferenceIdeal.ReadP.val_main_v9 Cert.ReferenceIdeal.ReadP.val_main_v3 Cert.ReferenceIdeal.ReadP.val_main_v2
    Cert.ReferenceIdeal.ReadP.val_main_c Cert.ReferenceIdeal.ReadP.val_main_c_1 Cert.ReferenceIdeal.ReadP.val_main_c_2
    Cert.ReferenceIdeal.ReadP.val_main_cst_3 Cert.ReferenceIdeal.ReadP.val_main_call3_v1 Cert.ReferenceIdeal.ReadP.val_main_call3_v0
    Cert.ReferenceIdeal.ReadP.val_main_cst
  rw [hn]
  rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RunH.ref_run (F := Ideal) m ρ)

/-- Both programs end at the masked mean of row losses that agree on every valid row. -/
theorem algebraic : Cert.algebraic_KernelIdeal_ReferenceIdeal := by
  intro m ρ m' ρ' hpre hagree
  refine ⟨_, Cert.KernelIdeal.KV.kernel_run m ρ, ?_⟩
  refine (θ_run Cert.ReferenceIdeal.defs _ _).mono (fun _ h c => ⟨(h c).1.trans ?_, (h c).2⟩)
    (Cert.ReferenceIdeal.RunH.ref_run (F := Ideal) m' ρ')
  rw [(hagree c).1, (hagree c).2.1, (hagree c).2.2]
  obtain ⟨hx, hw, hy⟩ := Cert.CE.pre_decode _ _ _ (hpre c)
  refine (ref_tail _ _ _).trans (Cert.CE.lossTail_congr _ _ _ _ _ _ _ ?_)
  intro p hp
  rcases hy p with h100 | hlt
  · exact absurd h100 hp
  · rw [Cert.CE.ref_row _ _ _ p hp hlt]
    obtain ⟨zr, hz⟩ := Cert.CE.logit_coe _ _ hx hw p
    show Cert.CE.nllR (Cert.CE.logit _ _ p) ⟨_, hlt⟩ = Cert.CE.nllK (Cert.CE.logit _ _ p) _
    rw [hz, Cert.CE.nllR_eq zr ⟨_, hlt⟩]
    have hk := Cert.CE.nllK_eq zr ⟨_, hlt⟩
    simp only [BitVec.ofNat_toNat, BitVec.setWidth_eq] at hk
    exact hk.symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
